-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S2x800000 : Shape := ⟨2, ![2, 800000]⟩
abbrev S800000x2 : Shape := ⟨2, ![800000, 2]⟩
abbrev S131x64 : Shape := ⟨2, ![131, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S800000x2 : S_.BroadcastsInDim S800000x2 (![] : Fin 0 → Fin S800000x2.rank)
  reducesTo_S800000x2_S_d0_1 : S800000x2.ReducesTo [0, 1] S_
  bcast_S_S131x64 : S_.BroadcastsInDim S131x64 (![] : Fin 0 → Fin S131x64.rank)
  reducesTo_S131x64_S_d0_1 : S131x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64x64 .f32) (main_arg13 : FVec F S64 .f32) (main_arg14 : FVec F S64x1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_v63 main_v67

def fn_part2 {F : FTy → Type} [FloatOps F] (main_arg8 : FVec F S128x64 .f32) (main_arg9 : FVec F S64 .f32) (main_arg10 : FVec F S64x64 .f32) (main_arg11 : FVec F S64 .f32) (main_arg12 : FVec F S64x64 .f32) (main_arg13 : FVec F S64 .f32) (main_arg14 : FVec F S64x1 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_v48 main_v49 main_v50

def fn_part1 {F : FTy → Type} [FloatOps F] (main_arg5 : FVec F S64 .f32) (main_arg6 : FVec F S64x64 .f32) (main_arg7 : FVec F S64 .f32) (main_arg8 : FVec F S128x64 .f32) (main_arg9 : FVec F S64 .f32) (main_arg10 : FVec F S64x64 .f32) (main_arg11 : FVec F S64 .f32) (main_arg12 : FVec F S64x64 .f32) (main_arg13 : FVec F S64 .f32) (main_arg14 : FVec F S64x1 .f32) (main_v13 : IVec S_ 1) (main_v16 : IVec S131x64 1) : IVec S_ 1 :=
  let main_c_5 : IVec S_ 1 := constantI S_ 1 1#1
  let main_v17 : IVec S_ 1 := (fun x v => Host.reduce IntOp.andi x v reducesTo_S131x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x64 .f32) (main_arg1 : FVec F S50000x3 .f32) (main_arg2 : IVec S2x800000 32) (main_arg3 : FVec F S800000x2 .f32) (main_arg4 : FVec F S131x64 .f32) (main_arg5 : FVec F S64 .f32) (main_arg6 : FVec F S64x64 .f32) (main_arg7 : FVec F S64 .f32) (main_arg8 : FVec F S128x64 .f32) (main_arg9 : FVec F S64 .f32) (main_arg10 : FVec F S64x64 .f32) (main_arg11 : FVec F S64 .f32) (main_arg12 : FVec F S64x64 .f32) (main_arg13 : FVec F S64 .f32) (main_arg14 : FVec F S64x1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S800000x2 .f32 := Host.absf main_arg3
  let main_cst_2 : FVec F S_ .f32 := constant S_ .f32 0x7F800000#32
  let main_v10 : FVec F S800000x2 .f32 := broadcastInDim S800000x2 ![] bcast_S_S800000x2 main_cst_2
  let main_v11 : IVec S800000x2 1 := cmpf .olt main_v9 main_v10
  let main_c_3 : IVec S_ 1 := constantI S_ 1 1#1
  let main_v12 : IVec S_ 1 := (fun x v => Host.reduce IntOp.andi x v reducesTo_S800000x2_S_d0_1 h_S_) main_v11 main_c_3
  let main_v13 : IVec S_ 1 := andi main_v8 main_v12
  let main_v14 : FVec F S131x64 .f32 := Host.absf main_arg4
  let main_cst_4 : FVec F S_ .f32 := constant S_ .f32 0x7F800000#32
  let main_v15 : FVec F S131x64 .f32 := broadcastInDim S131x64 ![] bcast_S_S131x64 main_cst_4
  let main_v16 : IVec S131x64 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x64 : Shape := ⟨2, ![50000, 64]⟩
abbrev S50000x3 : Shape := ⟨2, ![50000, 3]⟩
abbrev S2x800000 : Shape := ⟨2, ![2, 800000]⟩
abbrev S800000x2 : Shape := ⟨2, ![800000, 2]⟩
abbrev S131x64 : Shape := ⟨2, ![131, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x3 : Shape := ⟨2, ![800000, 3]⟩
abbrev S800000x5 : Shape := ⟨2, ![800000, 5]⟩
abbrev S1x64 : Shape := ⟨2, ![1, 64]⟩
abbrev S4000x64 : Shape := ⟨2, ![4000, 64]⟩
abbrev S4000x5 : Shape := ⟨2, ![4000, 5]⟩
abbrev S4000x3 : Shape := ⟨2, ![4000, 3]⟩
abbrev S4000x2 : Shape := ⟨2, ![4000, 2]⟩
abbrev S4000 : Shape := ⟨1, ![4000]⟩
abbrev S4000x1 : Shape := ⟨2, ![4000, 1]⟩
abbrev S4000x131 : Shape := ⟨2, ![4000, 131]⟩
abbrev S50000 : Shape := ⟨1, ![50000]⟩
abbrev S50000x1 : Shape := ⟨2, ![50000, 1]⟩
abbrev S2000x64 : Shape := ⟨2, ![2000, 64]⟩
abbrev S2000x3 : Shape := ⟨2, ![2000, 3]⟩
abbrev S2000x1 : Shape := ⟨2, ![2000, 1]⟩
abbrev S2000x128 : Shape := ⟨2, ![2000, 128]⟩

abbrev nBuf : Space → Nat
  | .hbm => 81
  | .vmem => 35
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x800000, .i32⟩
  | .hbm, ⟨3, _⟩ => ⟨S800000x2, .f32⟩
  | .hbm, ⟨4, _⟩ => ⟨S131x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x1, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x3, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x3, .f32⟩
  | .hbm, ⟨55, _⟩ => ⟨S800000x3, .f32⟩
  | .hbm, ⟨56, _⟩ => ⟨S800000x5, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S800000x64, .f32⟩
  | .hbm, ⟨61, _⟩ => ⟨S800000x3, .f32⟩
  | .hbm, ⟨62, _⟩ => ⟨S_, .f32⟩
  | .hbm, ⟨63, _⟩ => ⟨S50000x3, .f32⟩
  | .hbm, ⟨64, _⟩ => ⟨S800000x1, .i32⟩
  | .hbm, ⟨65, _⟩ => ⟨S50000x3, .f32⟩
  | .hbm, ⟨66, _⟩ => ⟨S_, .f32⟩
  | .hbm, ⟨67, _⟩ => ⟨S800000, .f32⟩
  | .hbm, ⟨68, _⟩ => ⟨S_, .f32⟩
  | .hbm, ⟨69, _⟩ => ⟨S50000, .f32⟩
  | .hbm, ⟨70, _⟩ => ⟨S800000x1, .i32⟩
  | .hbm, ⟨71, _⟩ => ⟨S50000, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S1x64, .f32⟩
  | .hbm, ⟨77, _⟩ => ⟨S1x64, .f32⟩
  | .hbm, ⟨78, _⟩ => ⟨S50000x1, .f32⟩
  | .hbm, ⟨79, _⟩ => ⟨S50000x64, .f32⟩
  | .hbm, ⟨80, _⟩ => ⟨S50000x3, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x5, .f32⟩
  | .local _ .vmem, ⟨5, _⟩ => ⟨S4000x5, .f32⟩
  | .local _ .vmem, ⟨6, _⟩ => ⟨S131x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x1, .f32⟩
  | .local _ .vmem, ⟨13, _⟩ => ⟨S4000x64, .f32⟩
  | .local _ .vmem, ⟨14, _⟩ => ⟨S4000x64, .f32⟩
  | .local _ .vmem, ⟨15, _⟩ => ⟨S4000x3, .f32⟩
  | .local _ .vmem, ⟨16, _⟩ => ⟨S4000x3, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x3, .f32⟩
  | .local _ .vmem, ⟨22, _⟩ => ⟨S2000x3, .f32⟩
  | .local _ .vmem, ⟨23, _⟩ => ⟨S2000x3, .f32⟩
  | .local _ .vmem, ⟨24, _⟩ => ⟨S2000x3, .f32⟩
  | .local _ .vmem, ⟨25, _⟩ => ⟨S2000x1, .f32⟩
  | .local _ .vmem, ⟨26, _⟩ => ⟨S2000x1, .f32⟩
  | .local _ .vmem, ⟨27, _⟩ => ⟨S128x64, .f32⟩
  | .local _ .vmem, ⟨28, _⟩ => ⟨S1x64, .f32⟩
  | .local _ .vmem, ⟨29, _⟩ => ⟨S64x64, .f32⟩
  | .local _ .vmem, ⟨30, _⟩ => ⟨S1x64, .f32⟩
  | .local _ .vmem, ⟨31, _⟩ => ⟨S2000x64, .f32⟩
  | .local _ .vmem, ⟨32, _⟩ => ⟨S2000x64, .f32⟩
  | .local _ .vmem, ⟨33, _⟩ => ⟨S2000x3, .f32⟩
  | .local _ .vmem, ⟨34, _⟩ => ⟨S2000x3, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37_0 : Ref sig .tc := ⟨.hbm, 60, rfl⟩
abbrev main_v37_1 : Ref sig .tc := ⟨.hbm, 61, rfl⟩
abbrev main_cst : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51_0 : Ref sig .tc := ⟨.hbm, 79, rfl⟩
abbrev main_v51_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem9_1 : DmaSem sig := 32
abbrev cc1_sem10_0 : DmaSem sig := 33
abbrev cc1_sem10_1 : DmaSem sig := 34

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S131x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x3 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x3_S800000x2_S800000x5_d1 : Shape.Concatenates [S800000x3, S800000x2] S800000x5 1
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x5_S4000x5_0_0 : ∀ a, (![0, 0] : Fin 2 → Nat) a + S4000x5.size a ≤ S4000x5.size a
  h_S4000x5 : 0 < S4000x5.numel
  shapeCasts_S4000x5_S4000x5 : S4000x5.ShapeCasts S4000x5
  slices_S4000x5_o0_0_S4000x3 : S4000x5.Slices ![0, 0] S4000x3
  slices_S4000x5_o0_3_S4000x2 : S4000x5.Slices ![0, 3] S4000x2
  reduces_S4000x3_S4000 : S4000x3.Reduces [1] S4000
  shapeCasts_S4000_S4000x1 : S4000.ShapeCasts S4000x1
  concatenates_S4000x64_S4000x64_S4000x1_S4000x2_S4000x131_d1 : Shape.Concatenates [S4000x64, S4000x64, S4000x1, S4000x2] S4000x131 1
  inb_S131x64_S131x64_0_0 : ∀ a, (![0, 0] : Fin 2 → Nat) a + S131x64.size a ≤ S131x64.size a
  h_S131x64 : 0 < S131x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  broadcasts_S4000x1_S4000x3 : S4000x1.Broadcasts S4000x3
  inb_S4000x3_S4000x3_0_0 : ∀ a, (![0, 0] : Fin 2 → Nat) a + S4000x3.size a ≤ S4000x3.size a
  h_S4000x3 : 0 < S4000x3.numel
  bcast_S_S50000x3 : S_.BroadcastsInDim S50000x3 (![] : Fin 0 → Fin S50000x3.rank)
  bcast_S_S50000 : S_.BroadcastsInDim S50000 (![] : Fin 0 → Fin S50000.rank)
  bcast_S_S50000x64 : S_.BroadcastsInDim S50000x64 (![] : Fin 0 → Fin S50000x64.rank)
  shapeCasts_S50000_S50000x1 : S50000.ShapeCasts S50000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  concatenates_S2000x64_S2000x64_S2000x128_d1 : Shape.Concatenates [S2000x64, S2000x64] S2000x128 1
  inb_S128x64_S128x64_0_0 : ∀ a, (![0, 0] : Fin 2 → Nat) a + S128x64.size a ≤ S128x64.size a
  h_S128x64 : 0 < S128x64.numel
  broadcasts_S1x64_S2000x64 : S1x64.Broadcasts S2000x64
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x3 : S2000x1.Broadcasts S2000x3
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S4000x131_S131x64_S4000x64_1_0_0_1_n_n_wf : DotDims.WF S4000x131 S131x64 S4000x64 [1] [0] [0] [1] [] []
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  scatter_S50000x3_S800000x1_S800000x3_1_0_0_1_wf : ScatterDims.WF S50000x3 S800000x1 S800000x3 [1] [0] [0] 1
  scatter_S50000_S800000x1_S800000_n_0_0_1_wf : ScatterDims.WF S50000 S800000x1 S800000 [] [0] [0] 1
  scatter_S50000x64_S800000x1_S800000x64_1_0_0_1_wf : ScatterDims.WF S50000x64 S800000x1 S800000x64 [1] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x5.size a ≤ S800000x5.size a
  hwx0_2 : ∀ i : grid0.Coords, EltTy.bits .f32 = 32 ∨ (Rect.block (s := S800000x5) S4000x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S131x64.size a ≤ S131x64.size a
  hwx0_3 : ∀ i : grid0.Coords, EltTy.bits .f32 = 32 ∨ (Rect.block (s := S131x64) S131x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .f32 = 32 ∨ (Rect.block (s := S64x1) S64x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x64.size a ≤ S800000x64.size a
  hwx0_10 : ∀ i : grid0.Coords, EltTy.bits .f32 = 32 ∨ (Rect.block (s := S800000x64) S4000x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x3.size a ≤ S800000x3.size a
  hwx0_11 : ∀ i : grid0.Coords, EltTy.bits .f32 = 32 ∨ (Rect.block (s := S800000x3) S4000x3.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x3.size a ≤ S50000x3.size a
  hwx1_2 : ∀ i : grid1.Coords, EltTy.bits .f32 = 32 ∨ (Rect.block (s := S50000x3) S2000x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S50000x3.size a
  hwx1_3 : ∀ i : grid1.Coords, EltTy.bits .f32 = 32 ∨ (Rect.block (s := S50000x3) S2000x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x64.size a ≤ S50000x64.size a
  hwx1_9 : ∀ i : grid1.Coords, EltTy.bits .f32 = 32 ∨ (Rect.block (s := S50000x64) S2000x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x3.size a ≤ S50000x3.size a
  hwx1_10 : ∀ i : grid1.Coords, EltTy.bits .f32 = 32 ∨ (Rect.block (s := S50000x3) S2000x3.size (cc1_transform_10 i) (hinb1_10 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S4000x131_S131x64_S4000x64_1_0_0_1_n_n : DotDims S4000x131 S131x64 S4000x64 where
  lhsContracting := [1]
  rhsContracting := [0]
  lhsNonContracting := [0]
  rhsNonContracting := [1]
  lhsBatch := []
  rhsBatch := []
  wf := dot_S4000x131_S131x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v10) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4000x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S131x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v37_0) S4000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v37_1) S4000x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S2000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v50) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v49) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v51_0) S2000x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v51_1) S2000x3.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S2x800000 : Shape := ⟨2, ![2, 800000]⟩
abbrev S800000x2 : Shape := ⟨2, ![800000, 2]⟩
abbrev S131x64 : Shape := ⟨2, ![131, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x64 : Shape := ⟨2, ![800000, 64]⟩
abbrev S800000x131 : Shape := ⟨2, ![800000, 131]⟩
abbrev S1x64 : Shape := ⟨2, ![1, 64]⟩
abbrev S50000 : Shape := ⟨1, ![50000]⟩
abbrev S50000x1 : Shape := ⟨2, ![50000, 1]⟩
abbrev S50000x128 : Shape := ⟨2, ![50000, 128]⟩

abbrev nBuf : Space → Nat
  | .hbm => 152
  | .vmem => 0
  | .smem => 0
  | _ => 0

abbrev hbmTy0_0 (i : Nat) : BufTy := match i % 128 with
  | 0 => ⟨S50000x64, .f32⟩
  | 1 => ⟨S50000x3, .f32⟩
  | 2 => ⟨S2x800000, .i32⟩
  | 3 => ⟨S800000x2, .f32⟩
  | 4 => ⟨S131x64, .f32⟩
  | 5 => ⟨S64, .f32⟩
  | 6 => ⟨S64x64, .f32⟩
  | 7 => ⟨S64, .f32⟩
  | 8 => ⟨S128x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x1, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x3, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x3, .f32⟩
  | 37 => ⟨S800000x3, .f32⟩
  | 38 => ⟨S800000x3, .f32⟩
  | 39 => ⟨S_, .f32⟩
  | 40 => ⟨S800000, .f32⟩
  | 41 => ⟨S800000x1, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x64, .f32⟩
  | 60 => ⟨S800000x131, .f32⟩
  | 61 => ⟨S800000x64, .f32⟩
  | 62 => ⟨S1x64, .f32⟩
  | 63 => ⟨S800000x64, .f32⟩
  | 64 => ⟨S800000x64, .f32⟩
  | 65 => ⟨S800000x64, .f32⟩
  | 66 => ⟨S800000x64, .f32⟩
  | 67 => ⟨S_, .f32⟩
  | 68 => ⟨S800000x64, .f32⟩
  | 69 => ⟨S800000x64, .f32⟩
  | 70 => ⟨S_, .f32⟩
  | 71 => ⟨S800000x64, .f32⟩
  | 72 => ⟨S800000x64, .f32⟩
  | 73 => ⟨S800000x64, .f32⟩
  | 74 => ⟨S800000x64, .f32⟩
  | 75 => ⟨S1x64, .f32⟩
  | 76 => ⟨S800000x64, .f32⟩
  | 77 => ⟨S800000x64, .f32⟩
  | 78 => ⟨S800000x64, .f32⟩
  | 79 => ⟨S800000x64, .f32⟩
  | 80 => ⟨S_, .f32⟩
  | 81 => ⟨S800000x64, .f32⟩
  | 82 => ⟨S800000x64, .f32⟩
  | 83 => ⟨S_, .f32⟩
  | 84 => ⟨S800000x64, .f32⟩
  | 85 => ⟨S800000x64, .f32⟩
  | 86 => ⟨S800000x64, .f32⟩
  | 87 => ⟨S800000x64, .f32⟩
  | 88 => ⟨S1x64, .f32⟩
  | 89 => ⟨S800000x64, .f32⟩
  | 90 => ⟨S800000x64, .f32⟩
  | 91 => ⟨S800000x64, .f32⟩
  | 92 => ⟨S800000x64, .f32⟩
  | 93 => ⟨S_, .f32⟩
  | 94 => ⟨S800000x64, .f32⟩
  | 95 => ⟨S800000x64, .f32⟩
  | 96 => ⟨S_, .f32⟩
  | 97 => ⟨S800000x64, .f32⟩
  | 98 => ⟨S800000x64, .f32⟩
  | 99 => ⟨S800000x64, .f32⟩
  | 100 => ⟨S800000x1, .f32⟩
  | 101 => ⟨S800000x3, .f32⟩
  | 102 => ⟨S800000x3, .f32⟩
  | 103 => ⟨S_, .f32⟩
  | 104 => ⟨S_, .f32⟩
  | 105 => ⟨S_, .f32⟩
  | 106 => ⟨S800000x3, .f32⟩
  | 107 => ⟨S800000x3, .f32⟩
  | 108 => ⟨S_, .f32⟩
  | 109 => ⟨S800000x3, .f32⟩
  | 110 => ⟨S800000x3, .f32⟩
  | 111 => ⟨S_, .f32⟩
  | 112 => ⟨S50000x3, .f32⟩
  | 113 => ⟨S800000x1, .i32⟩
  | 114 => ⟨S50000x3, .f32⟩
  | 115 => ⟨S_, .f32⟩
  | 116 => ⟨S800000, .f32⟩
  | 117 => ⟨S_, .f32⟩
  | 118 => ⟨S50000, .f32⟩
  | 119 => ⟨S800000x1, .i32⟩
  | 120 => ⟨S50000, .f32⟩
  | 121 => ⟨S_, .f32⟩
  | 122 => ⟨S_, .f32⟩
  | 123 => ⟨S50000, .f32⟩
  | 124 => ⟨S50000, .f32⟩
  | 125 => ⟨S50000x1, .f32⟩
  | 126 => ⟨S50000x3, .f32⟩
  | 127 => ⟨S50000x3, .f32⟩
  | _ => ⟨S50000x64, .f32⟩

abbrev hbmTy0_1 (i : Nat) : BufTy := match i % 128 with
  | 0 => ⟨S50000x3, .f32⟩
  | 1 => ⟨S_, .f32⟩
  | 2 => ⟨S50000x64, .f32⟩
  | 3 => ⟨S800000x1, .i32⟩
  | 4 => ⟨S50000x64, .f32⟩
  | 5 => ⟨S50000x128, .f32⟩
  | 6 => ⟨S50000x64, .f32⟩
  | 7 => ⟨S1x64, .f32⟩
  | 8 => ⟨S50000x64, .f32⟩
  | 9 => ⟨S50000x64, .f32⟩
  | 10 => ⟨S50000x64, .f32⟩
  | 11 => ⟨S50000x64, .f32⟩
  | 12 => ⟨S_, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S50000x64, .f32⟩
  | 19 => ⟨S50000x64, .f32⟩
  | 20 => ⟨S1x64, .f32⟩
  | 21 => ⟨S50000x64, .f32⟩
  | 22 => ⟨S50000x64, .f32⟩
  | 23 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_call2_v0 : Ref sig .tc := ⟨.hbm, 91, rfl⟩
abbrev main_call2_v1 : Ref sig .tc := ⟨.hbm, 92, rfl⟩
abbrev main_call2_cst : Ref sig .tc := ⟨.hbm, 93, rfl⟩
abbrev main_call2_v2 : Ref sig .tc := ⟨.hbm, 94, rfl⟩
abbrev main_call2_v3 : Ref sig .tc := ⟨.hbm, 95, rfl⟩
abbrev main_call2_cst_0 : Ref sig .tc := ⟨.hbm, 96, rfl⟩
abbrev main_call2_v4 : Ref sig .tc := ⟨.hbm, 97, rfl⟩
abbrev main_call2_v5 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_cst_7 : Ref sig .tc := ⟨.hbm, 103, rfl⟩
abbrev main_cst_8 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_v55 : Ref sig .tc := ⟨.hbm, 110, rfl⟩
abbrev main_cst_9 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_10 : Ref sig .tc := ⟨.hbm, 115, rfl⟩
abbrev main_v59 : Ref sig .tc := ⟨.hbm, 116, rfl⟩
abbrev main_cst_11 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_cst_12 : Ref sig .tc := ⟨.hbm, 121, rfl⟩
abbrev main_call4_v0 : Ref sig .tc := ⟨.hbm, 122, rfl⟩
abbrev main_call4_v1 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_cst_13 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_call5_v0 : Ref sig .tc := ⟨.hbm, 138, rfl⟩
abbrev main_call5_v1 : Ref sig .tc := ⟨.hbm, 139, rfl⟩
abbrev main_call5_cst : Ref sig .tc := ⟨.hbm, 140, rfl⟩
abbrev main_call5_v2 : Ref sig .tc := ⟨.hbm, 141, rfl⟩
abbrev main_call5_v3 : Ref sig .tc := ⟨.hbm, 142, rfl⟩
abbrev main_call5_cst_0 : Ref sig .tc := ⟨.hbm, 143, rfl⟩
abbrev main_call5_v4 : Ref sig .tc := ⟨.hbm, 144, rfl⟩
abbrev main_call5_v5 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x64_S800000x64_S800000x1_S800000x2_S800000x131_d1 : Shape.Concatenates [S800000x64, S800000x64, S800000x1, S800000x2] S800000x131 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S800000x1_S800000x3_0_1 : S800000x1.BroadcastsInDim S800000x3 (![0, 1] : Fin 2 → Fin S800000x3.rank)
  bcast_S_S800000x3 : S_.BroadcastsInDim S800000x3 (![] : Fin 0 → Fin S800000x3.rank)
  bcast_S_S50000x3 : S_.BroadcastsInDim S50000x3 (![] : Fin 0 → Fin S50000x3.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S800000x131_S131x64_S800000x64_1_0_0_1_n_n_wf : DotDims.WF S800000x131 S131x64 S800000x64 [1] [0] [0] [1] [] []
  dot_S800000x64_S64x64_S800000x64_1_0_0_1_n_n_wf : DotDims.WF S800000x64 S64x64 S800000x64 [1] [0] [0] [1] [] []
  dot_S800000x64_S64x1_S800000x1_1_0_0_1_n_n_wf : DotDims.WF S800000x64 S64x1 S800000x1 [1] [0] [0] [1] [] []
  scatter_S50000x3_S800000x1_S800000x3_1_0_0_1_wf : ScatterDims.WF S50000x3 S800000x1 S800000x3 [1] [0] [0] 1
  scatter_S50000_S800000x1_S800000_n_0_0_1_wf : ScatterDims.WF S50000 S800000x1 S800000 [] [0] [0] 1
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x131_S131x64_S800000x64_1_0_0_1_n_n : DotDims S800000x131 S131x64 S800000x64 where
  lhsContracting := [1]
  rhsContracting := [0]
  lhsNonContracting := [0]
  rhsNonContracting := [1]
  lhsBatch := []
  rhsBatch := []
  wf := dot_S800000x131_S131x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Layers.lean ====
import Idealize.ShloMosaic.PureOps.Ideal
import Idealize.ShloMosaic.PureOps.Ideal.Laws
import Idealize.ShloMosaic.Lib.ValueIdx

/-!
# The message-passing layer as functions of rows

Every output row of the two kernels depends on ONE row of each row-indexed input and on the
whole weight matrices. This module states those row functions once, for any number of rows
`n`, over the extended reals: a dense layer (a row times a matrix plus a bias row), the
activation `x · logistic x`, the edge network's input row (source features, target features,
the squared length of the coordinate difference, the edge attributes), and the four results:
the edge feature, the clipped coordinate translation, the updated node feature and the updated
coordinate. Each comes with its row lemma: the result at row `r` of one family of arrays equals
the result at row `r'` of another family as soon as the input rows agree — which is how a block
of rows of the kernel's result is identified with the same rows of the whole-array result.
-/

noncomputable section

namespace Cert.Layers

open Idealize.ShloMosaic Idealize.ShloMosaic.ValueIdx

/-- An `n × k` array of extended reals. -/
abbrev Arr (n k : Nat) : Type := (⟨2, ![n, k]⟩ : Shape).Idx → EReal

/-- The row coordinate of an index, typed by the literal extent. -/
abbrev row {n k : Nat} (i : (⟨2, ![n, k]⟩ : Shape).Idx) : Fin n := ⟨(i 0).val, idx2_lt0 i⟩
/-- The column coordinate of an index, typed by the literal extent. -/
abbrev col {n k : Nat} (i : (⟨2, ![n, k]⟩ : Shape).Idx) : Fin k := ⟨(i 1).val, idx2_lt1 i⟩

/-- The activation `x · logistic x`. -/
def silu (x : EReal) : EReal := x * Ideal.logistic x

/-- The activation, entry by entry. -/
def act {n J : Nat} (x : Arr n J) : Arr n J := fun i => silu (x i)

/-- A dense layer: entry `(r, j)` is `∑ₖ x r k · W k j + b 0 j`. -/
def lin {n K J : Nat} (x : Arr n K) (W : Arr K J) (b : Arr 1 J) : Arr n J :=
  fun i => (∑ k : Fin K, x (ix2 (row i) k) * W (ix2 k (col i))) + b (ix2 0 (col i))

/-- The edge network's input row: 64 source features, 64 target features, the squared length of the
    coordinate difference (columns 0–2 of `oth`), and the two edge attributes (columns 3–4 of `oth`). -/
def ein {n : Nat} (hr hc : Arr n 64) (oth : Arr n 5) : Arr n 131 := fun i =>
  if h1 : (i 1).val < 64 then hr (ix2 (row i) ⟨(i 1).val, h1⟩)
  else if h2 : (i 1).val < 128 then hc (ix2 (row i) ⟨(i 1).val - 64, by omega⟩)
  else if (i 1).val < 129 then ∑ d : Fin 3, oth (ix2 (row i) ⟨d.val, by omega⟩) * oth (ix2 (row i) ⟨d.val, by omega⟩)
  else oth (ix2 (row i) ⟨(i 1).val - 126, by have := idx2_lt1 i; omega⟩)

/-- The edge feature: two dense layers, each followed by the activation, of the input row. -/
def edgeFeat {n : Nat} (hr hc : Arr n 64) (oth : Arr n 5) (W1 : Arr 131 64) (b1 : Arr 1 64) (W2 : Arr 64 64)
    (b2 : Arr 1 64) : Arr n 64 :=
  act (lin (act (lin (ein hr hc oth) W1 b1)) W2 b2)

/-- The coordinate scale of an edge: a dense layer and the activation of its feature, then a product with the
    one-column matrix `Wc2` (no bias). -/
def scaleCol {n : Nat} (ef : Arr n 64) (Wc1 : Arr 64 64) (bc1 : Arr 1 64) (Wc2 : Arr 64 1) : Arr n 1 :=
  fun i => ∑ k : Fin 64, act (lin ef Wc1 bc1) (ix2 (row i) k) * Wc2 (ix2 k (col i))

/-- The coordinate translation: the coordinate difference (columns 0–2 of `oth`) times the edge's scale, clipped to
    `[-100, 100]` (the two bounds kept as the float words the programs print). -/
def trans {n : Nat} (oth : Arr n 5) (sc : Arr n 1) : Arr n 3 := fun i =>
  min (Ideal.ofBits .f32 0x42C80000#32)
    (max (Ideal.ofBits .f32 0xC2C80000#32)
      (oth (ix2 (row i) ⟨(i 1).val, by have := idx2_lt1 i; omega⟩) * sc (ix2 (row i) 0)))

/-- Two 64-column arrays side by side. -/
def cat2 {n : Nat} (a b : Arr n 64) : Arr n 128 := fun i =>
  if h : (i 1).val < 64 then a (ix2 (row i) ⟨(i 1).val, h⟩)
  else b (ix2 (row i) ⟨(i 1).val - 64, by have := idx2_lt1 i; omega⟩)

/-- The updated node feature: the feature plus two dense layers (the activation between them) of the feature beside
    the aggregated edge features. -/
def nodeH {n : Nat} (h agg : Arr n 64) (W1 : Arr 128 64) (b1 : Arr 1 64) (W2 : Arr 64 64) (b2 : Arr 1 64) : Arr n 64 :=
  fun i => h i + lin (act (lin (cat2 h agg) W1 b1)) W2 b2 i

/-- The updated coordinate: the coordinate plus the aggregated translation over the edge count, the count raised
    to at least one (the float word of `1.0` kept as printed). -/
def nodeC {n : Nat} (coord aggc : Arr n 3) (cnt : Arr n 1) : Arr n 3 := fun i =>
  coord i + Ideal.div (aggc i) (max (Ideal.ofBits .f32 0x3F800000#32) (cnt (ix2 (row i) 0)))

/-! ## Row lemmas -/

variable {n n' : Nat}

theorem act_row {J : Nat} (x : Arr n J) (x' : Arr n' J) (r : Fin n) (r' : Fin n') (q : Fin J)
    (h : x (ix2 r q) = x' (ix2 r' q)) : act x (ix2 r q) = act x' (ix2 r' q) := by
  unfold act; rw [h]

theorem lin_row {K J : Nat} (x : Arr n K) (x' : Arr n' K) (W : Arr K J) (b : Arr 1 J) (r : Fin n) (r' : Fin n')
    (h : ∀ k : Fin K, x (ix2 r k) = x' (ix2 r' k)) (q : Fin J) :
    lin x W b (ix2 r q) = lin x' W b (ix2 r' q) := by
  unfold lin
  show (∑ k : Fin K, x (ix2 r k) * W (ix2 k q)) + b (ix2 0 q) = (∑ k : Fin K, x' (ix2 r' k) * W (ix2 k q)) + b (ix2 0 q)
  exact congrArg (· + b (ix2 0 q)) (Finset.sum_congr rfl fun k _ => by rw [h k])

theorem ein_row (hr hc : Arr n 64) (oth : Arr n 5) (hr' hc' : Arr n' 64) (oth' : Arr n' 5) (r : Fin n) (r' : Fin n')
    (h1 : ∀ k : Fin 64, hr (ix2 r k) = hr' (ix2 r' k)) (h2 : ∀ k : Fin 64, hc (ix2 r k) = hc' (ix2 r' k))
    (h3 : ∀ k : Fin 5, oth (ix2 r k) = oth' (ix2 r' k)) (l : Fin 131) :
    ein hr hc oth (ix2 r l) = ein hr' hc' oth' (ix2 r' l) := by
  unfold ein
  show (if h1 : l.val < 64 then hr (ix2 r ⟨l.val, h1⟩) else if h2 : l.val < 128 then hc (ix2 r ⟨l.val - 64, _⟩)
      else if l.val < 129 then ∑ d : Fin 3, oth (ix2 r ⟨d.val, _⟩) * oth (ix2 r ⟨d.val, _⟩) else oth (ix2 r ⟨l.val - 126, _⟩))
    = (if h1 : l.val < 64 then hr' (ix2 r' ⟨l.val, h1⟩) else if h2 : l.val < 128 then hc' (ix2 r' ⟨l.val - 64, _⟩)
      else if l.val < 129 then ∑ d : Fin 3, oth' (ix2 r' ⟨d.val, _⟩) * oth' (ix2 r' ⟨d.val, _⟩) else oth' (ix2 r' ⟨l.val - 126, _⟩))
  simp only [h1, h2, h3]

theorem edgeFeat_row (hr hc : Arr n 64) (oth : Arr n 5) (hr' hc' : Arr n' 64) (oth' : Arr n' 5)
    (W1 : Arr 131 64) (b1 : Arr 1 64) (W2 : Arr 64 64) (b2 : Arr 1 64) (r : Fin n) (r' : Fin n')
    (h1 : ∀ k : Fin 64, hr (ix2 r k) = hr' (ix2 r' k)) (h2 : ∀ k : Fin 64, hc (ix2 r k) = hc' (ix2 r' k))
    (h3 : ∀ k : Fin 5, oth (ix2 r k) = oth' (ix2 r' k)) (q : Fin 64) :
    edgeFeat hr hc oth W1 b1 W2 b2 (ix2 r q) = edgeFeat hr' hc' oth' W1 b1 W2 b2 (ix2 r' q) := by
  unfold edgeFeat
  refine act_row _ _ r r' q (lin_row _ _ W2 b2 r r' (fun k => act_row _ _ r r' k (lin_row _ _ W1 b1 r r' (fun l => ?_) k)) q)
  exact ein_row hr hc oth hr' hc' oth' r r' h1 h2 h3 l

theorem scaleCol_row (ef : Arr n 64) (ef' : Arr n' 64) (Wc1 : Arr 64 64) (bc1 : Arr 1 64) (Wc2 : Arr 64 1) (r : Fin n)
    (r' : Fin n') (h : ∀ k : Fin 64, ef (ix2 r k) = ef' (ix2 r' k)) (q : Fin 1) :
    scaleCol ef Wc1 bc1 Wc2 (ix2 r q) = scaleCol ef' Wc1 bc1 Wc2 (ix2 r' q) := by
  unfold scaleCol
  show (∑ k : Fin 64, act (lin ef Wc1 bc1) (ix2 r k) * Wc2 (ix2 k q)) = ∑ k : Fin 64, act (lin ef' Wc1 bc1) (ix2 r' k) * Wc2 (ix2 k q)
  refine Finset.sum_congr rfl fun k _ => ?_
  rw [act_row _ _ r r' k (lin_row _ _ Wc1 bc1 r r' h k)]

theorem trans_row (oth : Arr n 5) (oth' : Arr n' 5) (sc : Arr n 1) (sc' : Arr n' 1) (r : Fin n) (r' : Fin n')
    (h3 : ∀ k : Fin 5, oth (ix2 r k) = oth' (ix2 r' k)) (hs : sc (ix2 r 0) = sc' (ix2 r' 0)) (d : Fin 3) :
    trans oth sc (ix2 r d) = trans oth' sc' (ix2 r' d) := by
  unfold trans
  show min _ (max _ (oth (ix2 r ⟨d.val, _⟩) * sc (ix2 r 0))) = min _ (max _ (oth' (ix2 r' ⟨d.val, _⟩) * sc' (ix2 r' 0)))
  rw [h3, hs]

theorem cat2_row (a b : Arr n 64) (a' b' : Arr n' 64) (r : Fin n) (r' : Fin n')
    (h1 : ∀ k : Fin 64, a (ix2 r k) = a' (ix2 r' k)) (h2 : ∀ k : Fin 64, b (ix2 r k) = b' (ix2 r' k)) (l : Fin 128) :
    cat2 a b (ix2 r l) = cat2 a' b' (ix2 r' l) := by
  unfold cat2
  show (if h : l.val < 64 then a (ix2 r ⟨l.val, h⟩) else b (ix2 r ⟨l.val - 64, _⟩))
    = (if h : l.val < 64 then a' (ix2 r' ⟨l.val, h⟩) else b' (ix2 r' ⟨l.val - 64, _⟩))
  simp only [h1, h2]

theorem nodeH_row (h agg : Arr n 64) (h' agg' : Arr n' 64) (W1 : Arr 128 64) (b1 : Arr 1 64) (W2 : Arr 64 64)
    (b2 : Arr 1 64) (r : Fin n) (r' : Fin n') (e1 : ∀ k : Fin 64, h (ix2 r k) = h' (ix2 r' k))
    (e2 : ∀ k : Fin 64, agg (ix2 r k) = agg' (ix2 r' k)) (q : Fin 64) :
    nodeH h agg W1 b1 W2 b2 (ix2 r q) = nodeH h' agg' W1 b1 W2 b2 (ix2 r' q) := by
  unfold nodeH
  rw [e1 q, lin_row _ _ W2 b2 r r' (fun k => act_row _ _ r r' k (lin_row _ _ W1 b1 r r'
    (fun l => cat2_row h agg h' agg' r r' e1 e2 l) k)) q]

theorem nodeC_row (coord aggc : Arr n 3) (cnt : Arr n 1) (coord' aggc' : Arr n' 3) (cnt' : Arr n' 1) (r : Fin n)
    (r' : Fin n') (e1 : ∀ d : Fin 3, coord (ix2 r d) = coord' (ix2 r' d))
    (e2 : ∀ d : Fin 3, aggc (ix2 r d) = aggc' (ix2 r' d)) (e3 : cnt (ix2 r 0) = cnt' (ix2 r' 0)) (d : Fin 3) :
    nodeC coord aggc cnt (ix2 r d) = nodeC coord' aggc' cnt' (ix2 r' d) := by
  unfold nodeC
  show coord (ix2 r d) + Ideal.div (aggc (ix2 r d)) (max _ (cnt (ix2 r 0)))
    = coord' (ix2 r' d) + Ideal.div (aggc' (ix2 r' d)) (max _ (cnt' (ix2 r' 0)))
  rw [e1, e2, e3]

end Cert.Layers

end
-- ==== Proof.KEdge.lean ====
import proofs.«177892_j11751030522785_1_alg».proof.Proof.Gen.KernelIdeal.Skeleton
import proofs.«177892_j11751030522785_1_alg».proof.Proof.Layers
import Idealize.ShloMosaic.Lib.Pipeline.Value
import Idealize.ShloMosaic.Lib.ValueIdx
import Idealize.ShloMosaic.Lib.ValueLayout
import Idealize.ShloMosaic.PureOps.Ideal.Laws

/-!
# The edge kernel's two stored values as row functions

At the exact extended-real reading, the value the edge kernel stores into its feature window is the edge feature
of its loaded blocks, and the value it stores into its translation window is the clipped translation of the
coordinate differences by the scale read off that feature.
-/

noncomputable section

namespace Cert.KernelIdeal.KEdge

open Idealize.ShloMosaic Idealize.ShloMosaic.ValueIdx Cert.KernelIdeal Cert.KernelIdeal.Gen Cert.Layers

/-! ## The 4000×131 by 131×64 contraction: its operand indices, and the contraction read at an index

At output index `(p, q)` and contraction coordinate `k` the left operand is read at `(p, k)` and the right one at
`(k, q)`; into a zero accumulator the contraction is the sum of those products over `k`. -/

theorem lhsA_0 (i : S4000x64.Idx) (q : dot_S4000x131_S131x64_S4000x64_1_0_0_1_n_n.contr.Idx) :
    (dot_S4000x131_S131x64_S4000x64_1_0_0_1_n_n.lhsIdx i q 0).val = (i 0).val := by
  unfold DotDims.lhsIdx
  rw [dif_neg (show ¬(0 : Fin S4000x131.rank) ∈ dot_S4000x131_S131x64_S4000x64_1_0_0_1_n_n.lhsBatch by decide), dif_pos (show (0 : Fin S4000x131.rank) ∈ dot_S4000x131_S131x64_S4000x64_1_0_0_1_n_n.lhsNonContracting by decide)]
  rfl
theorem lhsA_1 (i : S4000x64.Idx) (q : dot_S4000x131_S131x64_S4000x64_1_0_0_1_n_n.contr.Idx) :
    (dot_S4000x131_S131x64_S4000x64_1_0_0_1_n_n.lhsIdx i q 1).val = (q ⟨0, by decide⟩).val :=
  dot_S4000x131_S131x64_S4000x64_1_0_0_1_n_n.lhsIdx_val_of_single rfl i q
theorem rhsA_0 (i : S4000x64.Idx) (q : dot_S4000x131_S131x64_S4000x64_1_0_0_1_n_n.contr.Idx) :
    (dot_S4000x131_S131x64_S4000x64_1_0_0_1_n_n.rhsIdx i q 0).val = (q ⟨0, by decide⟩).val :=
  dot_S4000x131_S131x64_S4000x64_1_0_0_1_n_n.rhsIdx_val_of_single rfl i q
theorem rhsA_1 (i : S4000x64.Idx) (q : dot_S4000x131_S131x64_S4000x64_1_0_0_1_n_n.contr.Idx) :
    (dot_S4000x131_S131x64_S4000x64_1_0_0_1_n_n.rhsIdx i q 1).val = (i 1).val := by
  unfold DotDims.rhsIdx
  rw [dif_neg (show ¬(1 : Fin S131x64.rank) ∈ dot_S4000x131_S131x64_S4000x64_1_0_0_1_n_n.rhsBatch by decide), dif_pos (show (1 : Fin S131x64.rank) ∈ dot_S4000x131_S131x64_S4000x64_1_0_0_1_n_n.rhsNonContracting by decide)]
  rfl

theorem mmA_apply (A : Vec Ideal S4000x131 .f32) (W : Vec Ideal S131x64 .f32) (p : Fin 4000) (q : Fin 64) :
    matmul dot_S4000x131_S131x64_S4000x64_1_0_0_1_n_n none (truncf .bf16 A bitsLt_bf16_f32) (truncf .bf16 W bitsLt_bf16_f32)
        (constant (F := Ideal) S4000x64 .f32 0x00000000#32) (ix2 p q)
      = ∑ k : Fin 131, A (ix2 p k) * W (ix2 k q) := by
  simp only [matmul]
  rw [Ideal.matmul_constant_zero_apply, ← Equiv.sum_comp (contrEquiv1 dot_S4000x131_S131x64_S4000x64_1_0_0_1_n_n 131 rfl rfl).symm]
  refine Finset.sum_congr rfl fun k _ => ?_
  have hk := contrEquiv1_symm_val dot_S4000x131_S131x64_S4000x64_1_0_0_1_n_n 131 rfl rfl k
  have el : dot_S4000x131_S131x64_S4000x64_1_0_0_1_n_n.lhsIdx (ix2 p q) ((contrEquiv1 dot_S4000x131_S131x64_S4000x64_1_0_0_1_n_n 131 rfl rfl).symm k) = ix2 p k := funext fun a => Fin.ext (by
    match a with
    | ⟨0, _⟩ => exact lhsA_0 _ _
    | ⟨1, _⟩ => exact (lhsA_1 _ _).trans hk)
  have er : dot_S4000x131_S131x64_S4000x64_1_0_0_1_n_n.rhsIdx (ix2 p q) ((contrEquiv1 dot_S4000x131_S131x64_S4000x64_1_0_0_1_n_n 131 rfl rfl).symm k) = ix2 k q := funext fun a => Fin.ext (by
    match a with
    | ⟨0, _⟩ => exact (rhsA_0 _ _).trans hk
    | ⟨1, _⟩ => exact rhsA_1 _ _)
  rw [el, er]
  rfl

/-! ## The 4000×64 by 64×64 contraction: its operand indices, and the contraction read at an index

At output index `(p, q)` and contraction coordinate `k` the left operand is read at `(p, k)` and the right one at
`(k, q)`; into a zero accumulator the contraction is the sum of those products over `k`. -/

theorem lhsB_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhsB_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhsB_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhsB_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

theorem mmB_apply (A : Vec Ideal S4000x64 .f32) (W : Vec Ideal S64x64 .f32) (p : Fin 4000) (q : Fin 64) :
    matmul dot_S4000x64_S64x64_S4000x64_1_0_0_1_n_n none (truncf .bf16 A bitsLt_bf16_f32) (truncf .bf16 W bitsLt_bf16_f32)
        (constant (F := Ideal) S4000x64 .f32 0x00000000#32) (ix2 p q)
      = ∑ k : Fin 64, A (ix2 p k) * W (ix2 k q) := by
  simp only [matmul]
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]
  rfl

/-! ## The 4000×64 by 64×1 contraction: its operand indices, and the contraction read at an index

At output index `(p, q)` and contraction coordinate `k` the left operand is read at `(p, k)` and the right one at
`(k, q)`; into a zero accumulator the contraction is the sum of those products over `k`. -/

theorem lhsC_0 (i : S4000x1.Idx) (q : dot_S4000x64_S64x1_S4000x1_1_0_0_1_n_n.contr.Idx) :
    (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
theorem lhsC_1 (i : S4000x1.Idx) (q : dot_S4000x64_S64x1_S4000x1_1_0_0_1_n_n.contr.Idx) :
    (dot_S4000x64_S64x1_S4000x1_1_0_0_1_n_n.lhsIdx i q 1).val = (q ⟨0, by decide⟩).val :=
  dot_S4000x64_S64x1_S4000x1_1_0_0_1_n_n.lhsIdx_val_of_single rfl i q
theorem rhsC_0 (i : S4000x1.Idx) (q : dot_S4000x64_S64x1_S4000x1_1_0_0_1_n_n.contr.Idx) :
    (dot_S4000x64_S64x1_S4000x1_1_0_0_1_n_n.rhsIdx i q 0).val = (q ⟨0, by decide⟩).val :=
  dot_S4000x64_S64x1_S4000x1_1_0_0_1_n_n.rhsIdx_val_of_single rfl i q
theorem rhsC_1 (i : S4000x1.Idx) (q : dot_S4000x64_S64x1_S4000x1_1_0_0_1_n_n.contr.Idx) :
    (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

theorem mmC_apply (A : Vec Ideal S4000x64 .f32) (W : Vec Ideal S64x1 .f32) (p : Fin 4000) (q : Fin 1) :
    matmul dot_S4000x64_S64x1_S4000x1_1_0_0_1_n_n none (truncf .bf16 A bitsLt_bf16_f32) (truncf .bf16 W bitsLt_bf16_f32)
        (constant (F := Ideal) S4000x1 .f32 0x00000000#32) (ix2 p q)
      = ∑ k : Fin 64, A (ix2 p k) * W (ix2 k q) := by
  simp only [matmul]
  rw [Ideal.matmul_constant_zero_apply, ← Equiv.sum_comp (contrEquiv1 dot_S4000x64_S64x1_S4000x1_1_0_0_1_n_n 64 rfl rfl).symm]
  refine Finset.sum_congr rfl fun k _ => ?_
  have hk := contrEquiv1_symm_val dot_S4000x64_S64x1_S4000x1_1_0_0_1_n_n 64 rfl rfl k
  have el : dot_S4000x64_S64x1_S4000x1_1_0_0_1_n_n.lhsIdx (ix2 p q) ((contrEquiv1 dot_S4000x64_S64x1_S4000x1_1_0_0_1_n_n 64 rfl rfl).symm k) = ix2 p k := funext fun a => Fin.ext (by
    match a with
    | ⟨0, _⟩ => exact lhsC_0 _ _
    | ⟨1, _⟩ => exact (lhsC_1 _ _).trans hk)
  have er : dot_S4000x64_S64x1_S4000x1_1_0_0_1_n_n.rhsIdx (ix2 p q) ((contrEquiv1 dot_S4000x64_S64x1_S4000x1_1_0_0_1_n_n 64 rfl rfl).symm k) = ix2 k q := funext fun a => Fin.ext (by
    match a with
    | ⟨0, _⟩ => exact (rhsC_0 _ _).trans hk
    | ⟨1, _⟩ => exact rhsC_1 _ _)
  rw [el, er]
  rfl

/-! ## The layout operations at an index -/

/-- The bias row broadcast down the rows reads the row at the column. -/
theorem bias_apply (b : Vec Ideal S1x64 .f32) (p : Fin 4000) (q : Fin 64) :
    broadcastTo S4000x64 (shapeCast S1x64 b shapeCasts_S1x64_S1x64) broadcasts_S1x64_S4000x64 (ix2 p q) = b (ix2 0 q) := by
  rw [shapeCast_self]
  exact broadcastTo_apply b broadcasts_S1x64_S4000x64 (ix2 p q) (ix2 0 q) (fun a => by
    match a with
    | ⟨0, _⟩ => rfl
    | ⟨1, _⟩ => rfl)

/-- The first three columns of the 4000×5 block. -/
theorem pay3_apply (x2 : Vec Ideal S4000x5 .f32) (p : Fin 4000) (d : Fin 3) :
    k0_pay3 (F := Ideal) x2 (ix2 p d) = x2 (ix2 p ⟨d.val, by omega⟩) := by
  unfold k0_pay3 k0_pay2
  rw [shapeCast_self]
  exact extractStridedSlice_apply ![0, 0] x2 slices_S4000x5_o0_0_S4000x3 (ix2 p d) (ix2 p ⟨d.val, by omega⟩) (fun a => by
    match a with
    | ⟨0, _⟩ => show p.val = 0 + p.val; omega
    | ⟨1, _⟩ => show d.val = 0 + d.val; omega)

/-- The last two columns of the 4000×5 block. -/
theorem tail_apply (x2 : Vec Ideal S4000x5 .f32) (p : Fin 4000) (d : Fin 2) :
    extractStridedSlice S4000x2 ![0, 3] (k0_pay2 (F := Ideal) x2) slices_S4000x5_o0_3_S4000x2 (ix2 p d) = x2 (ix2 p ⟨d.val + 3, by omega⟩) := by
  unfold k0_pay2
  rw [shapeCast_self]
  exact extractStridedSlice_apply ![0, 3] x2 slices_S4000x5_o0_3_S4000x2 (ix2 p d) (ix2 p ⟨d.val + 3, by omega⟩) (fun a => by
    match a with
    | ⟨0, _⟩ => show p.val = 0 + p.val; omega
    | ⟨1, _⟩ => show d.val + 3 = 3 + d.val; omega)

/-- The squared length of the first three columns, as a column. -/
theorem sq_apply (x2 : Vec Ideal S4000x5 .f32) (p : Fin 4000) :
    shapeCast S4000x1 (multiReduction (F := Ideal) .add [1] S4000 (mulf (k0_pay3 x2) (k0_pay3 x2)) 0x00000000#32 reduces_S4000x3_S4000 (.inl rfl) rfl)
        shapeCasts_S4000_S4000x1 (ix2 p 0)
      = ∑ d : Fin 3, x2 (ix2 p ⟨d.val, by omega⟩) * x2 (ix2 p ⟨d.val, by omega⟩) := by
  refine (shapeCast_apply _ shapeCasts_S4000_S4000x1 (ix2 p 0) (ix1 p) ?_).trans ?_
  · rw [Shape.rowMajor_val_one, Shape.rowMajor_val_two]
    show p.val = p.val * 1 + 0
    omega
  refine (Ideal.multiReduction_add_single (mulf (k0_pay3 (F := Ideal) x2) (k0_pay3 x2)) 0x00000000#32 reduces_S4000x3_S4000 (.inl rfl) rfl (ix1 p)).trans ?_
  show ∑ d : Fin 3, mulf (k0_pay3 (F := Ideal) x2) (k0_pay3 x2) (ix2 p d) = _
  refine Finset.sum_congr rfl fun d _ => ?_
  rw [mulf_apply, pay3_apply]

/-! ## The input row, the dense layers, the activation and the scale column -/

/-- The four pieces side by side are the edge network's input row. -/
theorem cat_eq_ein (x0 x1 : Vec Ideal S4000x64 .f32) (x2 : Vec Ideal S4000x5 .f32) :
    concatenate S4000x131 1
        [⟨S4000x64, shapeCast S4000x64 x0 shapeCasts_S4000x64_S4000x64⟩,
         ⟨S4000x64, shapeCast S4000x64 x1 shapeCasts_S4000x64_S4000x64⟩,
         ⟨S4000x1, shapeCast S4000x1 (multiReduction (F := Ideal) .add [1] S4000 (mulf (k0_pay3 x2) (k0_pay3 x2)) 0x00000000#32 reduces_S4000x3_S4000 (.inl rfl) rfl) shapeCasts_S4000_S4000x1⟩,
         ⟨S4000x2, extractStridedSlice S4000x2 ![0, 3] (k0_pay2 (F := Ideal) x2) slices_S4000x5_o0_3_S4000x2⟩]
        concatenates_S4000x64_S4000x64_S4000x1_S4000x2_S4000x131_d1
      = ein x0 x1 x2 := by
  funext i
  obtain ⟨p, c, rfl⟩ : ∃ (p : Fin 4000) (c : Fin 131), i = ix2 p c := ⟨i 0, i 1, eq_ix2 i⟩
  rw [shapeCast_self, shapeCast_self]
  have key := concatenate_apply_piece (t := S4000x131) (a := 1)
    [⟨S4000x64, x0⟩, ⟨S4000x64, x1⟩,
     ⟨S4000x1, shapeCast S4000x1 (multiReduction (F := Ideal) .add [1] S4000 (mulf (k0_pay3 x2) (k0_pay3 x2)) 0x00000000#32 reduces_S4000x3_S4000 (.inl rfl) rfl) shapeCasts_S4000_S4000x1⟩,
     ⟨S4000x2, extractStridedSlice S4000x2 ![0, 3] (k0_pay2 (F := Ideal) x2) slices_S4000x5_o0_3_S4000x2⟩]
    concatenates_S4000x64_S4000x64_S4000x1_S4000x2_S4000x131_d1 (ix2 p c)
  unfold ein
  show _ = (if h1 : c.val < 64 then x0 (ix2 p ⟨c.val, h1⟩) else if h2 : c.val < 128 then x1 (ix2 p ⟨c.val - 64, _⟩)
      else if c.val < 129 then ∑ d : Fin 3, x2 (ix2 p ⟨d.val, _⟩) * x2 (ix2 p ⟨d.val, _⟩) else x2 (ix2 p ⟨c.val - 126, _⟩))
  have hoff : ∀ (s : Shape) (hr : s.rank = 2) (y : s.Idx) (r : Fin 4000), (y (Fin.cast hr.symm 0)).val = r.val →
      ∀ b : Fin s.rank, b.cast hr ≠ (1 : Fin 2) → (y b).val = ((ix2 r c : S4000x131.Idx) (b.cast hr)).val := by
    intro s hr y r hy b hb
    have hb0 : b = Fin.cast hr.symm 0 := by
      apply Fin.ext
      have h1 : (b.cast hr).val ≠ 1 := fun h => hb (Fin.ext h)
      have h2 := (b.cast hr).isLt
      show b.val = 0
      have : (b.cast hr).val = b.val := rfl
      omega
    subst hb0
    exact hy
  by_cases h1 : c.val < 64
  · rw [dif_pos h1]
    exact key 0 (by show 0 < 4; omega) S4000x64 x0 rfl rfl 0 rfl (ix2 p ⟨c.val, h1⟩)
      (hoff S4000x64 rfl _ p rfl) (by show 0 + c.val = c.val; omega)
  · rw [dif_neg h1]
    by_cases h2 : c.val < 128
    · rw [dif_pos h2]
      exact key 1 (by show 1 < 4; omega) S4000x64 x1 rfl rfl 64 rfl (ix2 p ⟨c.val - 64, by omega⟩)
        (hoff S4000x64 rfl _ p rfl) (by show 64 + (c.val - 64) = c.val; omega)
    · rw [dif_neg h2]
      by_cases h3 : c.val < 129
      · rw [if_pos h3]
        refine (key 2 (by show 2 < 4; omega) S4000x1 _ rfl rfl 128 rfl (ix2 p 0)
          (hoff S4000x1 rfl _ p rfl) (by show 128 + 0 = c.val; omega)).trans ?_
        exact sq_apply x2 p
      · rw [if_neg h3]
        have hc := c.isLt
        refine (key 3 (by show 3 < 4; omega) S4000x2 _ rfl rfl 129 rfl (ix2 p ⟨c.val - 129, by omega⟩)
          (hoff S4000x2 rfl _ p rfl) (by show 129 + (c.val - 129) = c.val; omega)).trans ?_
        refine (tail_apply x2 p ⟨c.val - 129, by omega⟩).trans ?_
        exact congrArg x2 (congrArg (ix2 p) (Fin.ext (by show c.val - 129 + 3 = c.val - 126; omega)))

/-- The contraction into zero plus the broadcast bias row is the dense layer. -/
theorem linA (A : Vec Ideal S4000x131 .f32) (W : Vec Ideal S131x64 .f32) (b : Vec Ideal S1x64 .f32) :
    addf (matmul dot_S4000x131_S131x64_S4000x64_1_0_0_1_n_n none (truncf .bf16 A bitsLt_bf16_f32) (truncf .bf16 W bitsLt_bf16_f32)
          (constant (F := Ideal) S4000x64 .f32 0x00000000#32))
        (broadcastTo S4000x64 (shapeCast S1x64 b shapeCasts_S1x64_S1x64) broadcasts_S1x64_S4000x64)
      = lin A W b := by
  funext i
  obtain ⟨p, q, rfl⟩ : ∃ (p : Fin 4000) (q : Fin 64), i = ix2 p q := ⟨i 0, i 1, eq_ix2 i⟩
  rw [addf_apply, mmA_apply, bias_apply]
  rfl

/-- The contraction into zero plus the broadcast bias row is the dense layer. -/
theorem linB (A : Vec Ideal S4000x64 .f32) (W : Vec Ideal S64x64 .f32) (b : Vec Ideal S1x64 .f32) :
    addf (matmul dot_S4000x64_S64x64_S4000x64_1_0_0_1_n_n none (truncf .bf16 A bitsLt_bf16_f32) (truncf .bf16 W bitsLt_bf16_f32)
          (constant (F := Ideal) S4000x64 .f32 0x00000000#32))
        (broadcastTo S4000x64 (shapeCast S1x64 b shapeCasts_S1x64_S1x64) broadcasts_S1x64_S4000x64)
      = lin A W b := by
  funext i
  obtain ⟨p, q, rfl⟩ : ∃ (p : Fin 4000) (q : Fin 64), i = ix2 p q := ⟨i 0, i 1, eq_ix2 i⟩
  rw [addf_apply, mmB_apply, bias_apply]
  rfl

/-- The product of a vector with its logistic is the activation. -/
theorem silu_eq (v : FVec Ideal S4000x64 .f32) : mulf v (logistic v) = act v := by
  funext i
  rfl

/-- The one-column contraction into zero is the scale column. -/
theorem scale_eq (ef : Vec Ideal S4000x64 .f32) (Wc1 : Vec Ideal S64x64 .f32) (bc1 : Vec Ideal S1x64 .f32) (Wc2 : Vec Ideal S64x1 .f32) :
    matmul dot_S4000x64_S64x1_S4000x1_1_0_0_1_n_n none (truncf .bf16 (act (lin ef Wc1 bc1)) bitsLt_bf16_f32) (truncf .bf16 Wc2 bitsLt_bf16_f32)
        (constant (F := Ideal) S4000x1 .f32 0x00000000#32)
      = scaleCol ef Wc1 bc1 Wc2 := by
  funext i
  obtain ⟨p, q, rfl⟩ : ∃ (p : Fin 4000) (q : Fin 1), i = ix2 p q := ⟨i 0, i 1, eq_ix2 i⟩
  rw [mmC_apply]
  rfl

/-! ## The two stored values -/

/-- The feature payload is the edge feature of the loaded blocks. -/
theorem pay4_eq (x0 x1 : Vec Ideal S4000x64 .f32) (x2 : Vec Ideal S4000x5 .f32) (x3 : Vec Ideal S131x64 .f32)
    (x4 : Vec Ideal S1x64 .f32) (x5 : Vec Ideal S64x64 .f32) (x6 : Vec Ideal S1x64 .f32) :
    k0_pay4 (F := Ideal) x0 x1 x2 x3 x4 x5 x6 = edgeFeat x0 x1 x2 x3 x4 x5 x6 := by
  unfold edgeFeat
  simp only [k0_pay4]
  rw [cat_eq_ein, linA, silu_eq, linB, silu_eq]

/-- The translation payload is the clipped product of the coordinate difference with the edge's scale. -/
theorem pay1_eq (x0 x1 : Vec Ideal S4000x64 .f32) (x2 : Vec Ideal S4000x5 .f32) (x3 : Vec Ideal S131x64 .f32)
    (x4 : Vec Ideal S1x64 .f32) (x5 : Vec Ideal S64x64 .f32) (x6 : Vec Ideal S1x64 .f32) (x7 : Vec Ideal S64x64 .f32)
    (x8 : Vec Ideal S1x64 .f32) (x9 : Vec Ideal S64x1 .f32) :
    k0_pay1 (F := Ideal) (k0_pay3 x2) (k0_pay5 x0 x1 x2 x3 x4 x5 x6 x7) x8 x9
      = trans x2 (scaleCol (edgeFeat x0 x1 x2 x3 x4 x5 x6) x7 x8 x9) := by
  have e5 : k0_pay5 (F := Ideal) x0 x1 x2 x3 x4 x5 x6 x7
      = matmul dot_S4000x64_S64x64_S4000x64_1_0_0_1_n_n none (truncf .bf16 (edgeFeat x0 x1 x2 x3 x4 x5 x6) bitsLt_bf16_f32)
          (truncf .bf16 x7 bitsLt_bf16_f32) (constant (F := Ideal) S4000x64 .f32 0x00000000#32) := by
    simp only [k0_pay5]
    rw [pay4_eq]
  simp only [k0_pay1]
  rw [e5, linB, silu_eq, scale_eq]
  funext i
  obtain ⟨p, d, rfl⟩ : ∃ (p : Fin 4000) (d : Fin 3), i = ix2 p d := ⟨i 0, i 1, eq_ix2 i⟩
  rw [minimumf_apply, maximumf_apply, mulf_apply, broadcast_apply, broadcast_apply, pay3_apply,
    broadcastTo_apply (scaleCol (edgeFeat x0 x1 x2 x3 x4 x5 x6) x7 x8 x9) broadcasts_S4000x1_S4000x3 (ix2 p d) (ix2 p 0)
      (fun a => by
        match a with
        | ⟨0, _⟩ => rfl
        | ⟨1, _⟩ => rfl)]
  rfl

end Cert.KernelIdeal.KEdge

end
-- ==== Proof.KNode.lean ====
import proofs.«177892_j11751030522785_1_alg».proof.Proof.Gen.KernelIdeal.Skeleton
import proofs.«177892_j11751030522785_1_alg».proof.Proof.Layers
import Idealize.ShloMosaic.Lib.Pipeline.Value
import Idealize.ShloMosaic.Lib.ValueIdx
import Idealize.ShloMosaic.Lib.ValueLayout
import Idealize.ShloMosaic.PureOps.Ideal.Laws

/-!
# The node kernel's two stored values as row functions

At the exact extended-real reading, the value the node kernel stores into its feature window is the updated node
feature of its loaded blocks, and the value it stores into its coordinate window is the updated coordinate.
-/

noncomputable section

namespace Cert.KernelIdeal.KNode

open Idealize.ShloMosaic Idealize.ShloMosaic.ValueIdx Cert.KernelIdeal Cert.KernelIdeal.Gen Cert.Layers

/-! ## The 128-term contraction: its operand indices axis by axis, and the product read at an entry -/

/-- The left operand's row is the result's row. -/
theorem lhs_wide_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- The left operand's column is the contraction index. -/
theorem lhs_wide_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- The right operand's row is the contraction index. -/
theorem rhs_wide_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- The right operand's column is the result's column. -/
theorem rhs_wide_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The product into the zero accumulator, at entry `(p, q)`: the sum over `k` of row `p` of the left operand times
    column `q` of the right one. -/
theorem matmul_wide_apply (A : FVec Ideal S2000x128 .bf16) (W : FVec Ideal S128x64 .bf16) (p : Fin 2000) (q : Fin 64) :
    matmul dot_S2000x128_S128x64_S2000x64_1_0_0_1_n_n none A W (constant (F := Ideal) S2000x64 .f32 0x00000000#32) (ix2 p q)
      = ∑ k : Fin 128, A (ix2 p k) * W (ix2 k q) := by
  refine (Ideal.matmul_constant_zero_apply dot_S2000x128_S128x64_S2000x64_1_0_0_1_n_n none A W (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs_wide_0 _ _
    | ⟨1, _⟩ => exact (lhs_wide_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs_wide_0 _ _).trans hk
    | ⟨1, _⟩ => exact rhs_wide_1 _ _)
  rw [el, er]

/-- The product of the rounded operands plus the broadcast bias row is the dense layer. -/
theorem lin_wide_eq (A : FVec Ideal S2000x128 .f32) (W : FVec Ideal S128x64 .f32) (b : FVec Ideal S1x64 .f32) :
    addf (matmul dot_S2000x128_S128x64_S2000x64_1_0_0_1_n_n none (truncf .bf16 A bitsLt_bf16_f32) (truncf .bf16 W bitsLt_bf16_f32) (constant (F := Ideal) S2000x64 .f32 0x00000000#32))
      (broadcastTo S2000x64 (shapeCast S1x64 b shapeCasts_S1x64_S1x64) broadcasts_S1x64_S2000x64) = lin A W b := by
  funext i
  obtain ⟨p, q, rfl⟩ : ∃ (p : Fin 2000) (q : Fin 64), i = ix2 p q := ⟨i 0, i 1, eq_ix2 i⟩
  rw [shapeCast_self]
  refine (addf_apply _ _ _).trans ?_
  rw [matmul_wide_apply, broadcastTo_apply b broadcasts_S1x64_S2000x64 (ix2 p q) (ix2 0 q) (fun a => match a with
    | ⟨0, _⟩ => by show (0 : Nat) = if (1 : Nat) = 1 then 0 else _; rw [if_pos rfl]
    | ⟨1, _⟩ => by show q.val = if (64 : Nat) = 1 then 0 else q.val; rw [if_neg (by decide)])]
  show (∑ k : Fin 128, A (ix2 p k) * W (ix2 k q)) + b (ix2 0 q) = lin A W b (ix2 p q)
  rfl

/-! ## The 64-term contraction: its operand indices axis by axis, and the product read at an entry -/

/-- The left operand's row is the result's row. -/
theorem lhs_sq_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The left operand's column is the contraction index. -/
theorem lhs_sq_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- The right operand's row is the contraction index. -/
theorem rhs_sq_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- The right operand's column is the result's column. -/
theorem rhs_sq_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The product into the zero accumulator, at entry `(p, q)`: the sum over `k` of row `p` of the left operand times
    column `q` of the right one. -/
theorem matmul_sq_apply (A : FVec Ideal S2000x64 .bf16) (W : FVec Ideal S64x64 .bf16) (p : Fin 2000) (q : Fin 64) :
    matmul dot_S2000x64_S64x64_S2000x64_1_0_0_1_n_n none A W (constant (F := Ideal) S2000x64 .f32 0x00000000#32) (ix2 p q)
      = ∑ k : Fin 64, A (ix2 p k) * W (ix2 k q) := by
  refine (Ideal.matmul_constant_zero_apply dot_S2000x64_S64x64_S2000x64_1_0_0_1_n_n none A W (ix2 p q)).trans ?_
  rw [← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhs_sq_0 _ _
    | ⟨1, _⟩ => exact (lhs_sq_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (rhs_sq_0 _ _).trans hk
    | ⟨1, _⟩ => exact rhs_sq_1 _ _)
  rw [el, er]

/-- The product of the rounded operands plus the broadcast bias row is the dense layer. -/
theorem lin_sq_eq (A : FVec Ideal S2000x64 .f32) (W : FVec Ideal S64x64 .f32) (b : FVec Ideal S1x64 .f32) :
    addf (matmul dot_S2000x64_S64x64_S2000x64_1_0_0_1_n_n none (truncf .bf16 A bitsLt_bf16_f32) (truncf .bf16 W bitsLt_bf16_f32) (constant (F := Ideal) S2000x64 .f32 0x00000000#32))
      (broadcastTo S2000x64 (shapeCast S1x64 b shapeCasts_S1x64_S1x64) broadcasts_S1x64_S2000x64) = lin A W b := by
  funext i
  obtain ⟨p, q, rfl⟩ : ∃ (p : Fin 2000) (q : Fin 64), i = ix2 p q := ⟨i 0, i 1, eq_ix2 i⟩
  rw [shapeCast_self]
  refine (addf_apply _ _ _).trans ?_
  rw [matmul_sq_apply, broadcastTo_apply b broadcasts_S1x64_S2000x64 (ix2 p q) (ix2 0 q) (fun a => match a with
    | ⟨0, _⟩ => by show (0 : Nat) = if (1 : Nat) = 1 then 0 else _; rw [if_pos rfl]
    | ⟨1, _⟩ => by show q.val = if (64 : Nat) = 1 then 0 else q.val; rw [if_neg (by decide)])]
  show (∑ k : Fin 64, A (ix2 p k) * W (ix2 k q)) + b (ix2 0 q) = lin A W b (ix2 p q)
  rfl

/-! ## The activation and the two feature blocks side by side -/

/-- A value times its logistic, entry by entry, is the activation. -/
theorem mulf_logistic_eq (v : FVec Ideal S2000x64 .f32) : mulf v (logistic v) = act v :=
  funext fun _ => rfl

/-- The two-piece concatenation along the columns is the two blocks side by side. -/
theorem concat_eq (a b : FVec Ideal S2000x64 .f32) :
    concatenate S2000x128 1 [⟨S2000x64, a⟩, ⟨S2000x64, b⟩] concatenates_S2000x64_S2000x64_S2000x128_d1 = cat2 a b := by
  funext i
  obtain ⟨p, l, rfl⟩ : ∃ (p : Fin 2000) (l : Fin 128), i = ix2 p l := ⟨i 0, i 1, eq_ix2 i⟩
  have hl := l.isLt
  by_cases h : l.val < 64
  · refine (concatenate_pair_apply_left 1 a b concatenates_S2000x64_S2000x64_S2000x128_d1 (ix2 p l) rfl (ix2 p ⟨l.val, h⟩)
      (fun c => match c with | ⟨0, _⟩ => rfl | ⟨1, _⟩ => rfl)).trans ?_
    unfold cat2
    show a (ix2 p ⟨l.val, h⟩) = if h : l.val < 64 then a (ix2 p ⟨l.val, h⟩) else b (ix2 p ⟨l.val - 64, _⟩)
    rw [dif_pos h]
  · refine (concatenate_pair_apply_right 1 a b concatenates_S2000x64_S2000x64_S2000x128_d1 (ix2 p l) rfl rfl
      (ix2 p ⟨l.val - 64, by omega⟩) (fun c => match c with | ⟨0, _⟩ => fun _ => rfl | ⟨1, _⟩ => fun hne => absurd rfl hne)
      (by show l.val - 64 + 64 = l.val; omega)).trans ?_
    unfold cat2
    show b (ix2 p ⟨l.val - 64, _⟩) = if h : l.val < 64 then a (ix2 p ⟨l.val, h⟩) else b (ix2 p ⟨l.val - 64, _⟩)
    rw [dif_neg h]

/-! ## The two payloads -/

/-- The feature payload is the updated node feature of the loaded blocks. -/
theorem pay1_eq (x0 x1 : Vec Ideal S2000x64 .f32) (x5 : Vec Ideal S128x64 .f32) (x6 : Vec Ideal S1x64 .f32)
    (x7 : Vec Ideal S64x64 .f32) (x8 : Vec Ideal S1x64 .f32) :
    k1_pay1 (F := Ideal) x0 x1 x5 x6 x7 x8 = nodeH x0 x1 x5 x6 x7 x8 := by
  unfold k1_pay1
  dsimp only
  rw [shapeCast_self x1, concat_eq x0 x1, lin_wide_eq (cat2 x0 x1) x5 x6, mulf_logistic_eq, lin_sq_eq (act (lin (cat2 x0 x1) x5 x6)) x7 x8]
  rfl

/-- The coordinate payload is the updated coordinate of the loaded blocks. -/
theorem pay2_eq (x2 x3 : Vec Ideal S2000x3 .f32) (x4 : Vec Ideal S2000x1 .f32) :
    k1_pay2 (F := Ideal) x2 x3 x4 = nodeC x2 x3 x4 := by
  unfold k1_pay2
  dsimp only
  rw [shapeCast_self x3, shapeCast_self x4]
  funext i
  obtain ⟨p, d, rfl⟩ : ∃ (p : Fin 2000) (d : Fin 3), i = ix2 p d := ⟨i 0, i 1, eq_ix2 i⟩
  refine (addf_apply _ _ _).trans ?_
  refine congrArg (x2 (ix2 p d) + ·) ?_
  refine (divf_apply _ _ _).trans ?_
  rw [broadcastTo_apply _ broadcasts_S2000x1_S2000x3 (ix2 p d) (ix2 p 0) (fun a => match a with
    | ⟨0, _⟩ => by show p.val = if (2000 : Nat) = 1 then 0 else p.val; rw [if_neg (by decide)]
    | ⟨1, _⟩ => by show (0 : Nat) = if (1 : Nat) = 1 then 0 else _; rw [if_pos rfl])]
  rfl

end Cert.KernelIdeal.KNode

end
-- ==== Proof.KArrays.lean ====
import proofs.«177892_j11751030522785_1_alg».proof.Proof.KernelIdealFrameP
import proofs.«177892_j11751030522785_1_alg».proof.Proof.KEdge
import proofs.«177892_j11751030522785_1_alg».proof.Proof.KNode
import proofs.«177892_j11751030522785_1_alg».proof.Proof.Layers
import Idealize.ShloMosaic.Lib.Pipeline.Value
import Idealize.ShloMosaic.Lib.ValueIdx

/-!
# From blocks to arrays

Each output window of the two regions is written back one block of rows per grid point, the blocks tiling the
array. What point `t` writes back is the row function of the input blocks at `t`, and an input block's row `p` is
row `B·t + p` of its array (`B` the block's rows: 4000 for the edge region, 2000 for the node region), the weight and
bias windows being their whole arrays at every point. So each output array, after its region, is the row function of
the arrays the region was entered with.
-/

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Layers

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the grids

The row-blocked windows (the edge region's three inputs and two outputs, the node region's five inputs and two
outputs) sit at block `(t, 0)` at point `t`; the weight and bias windows at block `(0, 0)` at every point. -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = t.val ∧ win0_10.index t (1 : Fin 2) = 0 :=
  (by decide +kernel : ∀ t : Fin grid0.N, _)
theorem idx0_11 : ∀ t : Fin cfg0.N, win0_11.index t (0 : Fin 2) = t.val ∧ win0_11.index t (1 : Fin 2) = 0 :=
  (by decide +kernel : ∀ t : Fin grid0.N, _)
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)
theorem idx1_10 : ∀ t : Fin cfg1.N, win1_10.index t (0 : Fin 2) = t.val ∧ win1_10.index t (1 : Fin 2) = 0 :=
  (by decide +kernel : ∀ t : Fin grid1.N, _)

/-! ## Region 0 (the edge kernel, 200 points of 4000 rows): the input blocks -/

theorem blk0_0 (c : Dev nD) (t : Fin cfg0.N) (p : Fin 4000) (k : Fin 64) (h : 4000 * t.val + p.val < 800000) :
    iblk0 V c 0 t (ix2 p k) = V c main_v10 (ix2 (⟨4000 * t.val + p.val, h⟩ : Fin 800000) k) := by
  obtain ⟨e0, e1⟩ := idx0_0 t
  show V c main_v10 (((cfg0.win 0).blk t).view.emb (ix2 p k)) = _
  refine congrArg (V c main_v10) (funext fun a => Fin.ext ?_)
  match a with
  | ⟨0, _⟩ => show win0_0.index t (0 : Fin 2) * 4000 + 1 * p.val = 4000 * t.val + p.val; omega
  | ⟨1, _⟩ => show win0_0.index t (1 : Fin 2) * 64 + 1 * k.val = k.val; omega

theorem blk0_1 (c : Dev nD) (t : Fin cfg0.N) (p : Fin 4000) (k : Fin 64) (h : 4000 * t.val + p.val < 800000) :
    iblk0 V c 1 t (ix2 p k) = V c main_v17 (ix2 (⟨4000 * t.val + p.val, h⟩ : Fin 800000) k) := by
  obtain ⟨e0, e1⟩ := idx0_1 t
  show V c main_v17 (((cfg0.win 1).blk t).view.emb (ix2 p k)) = _
  refine congrArg (V c main_v17) (funext fun a => Fin.ext ?_)
  match a with
  | ⟨0, _⟩ => show win0_1.index t (0 : Fin 2) * 4000 + 1 * p.val = 4000 * t.val + p.val; omega
  | ⟨1, _⟩ => show win0_1.index t (1 : Fin 2) * 64 + 1 * k.val = k.val; omega

theorem blk0_2 (c : Dev nD) (t : Fin cfg0.N) (p : Fin 4000) (k : Fin 5) (h : 4000 * t.val + p.val < 800000) :
    iblk0 V c 2 t (ix2 p k) = V c main_v33 (ix2 (⟨4000 * t.val + p.val, h⟩ : Fin 800000) k) := by
  obtain ⟨e0, e1⟩ := idx0_2 t
  show V c main_v33 (((cfg0.win 2).blk t).view.emb (ix2 p k)) = _
  refine congrArg (V c main_v33) (funext fun a => Fin.ext ?_)
  match a with
  | ⟨0, _⟩ => show win0_2.index t (0 : Fin 2) * 4000 + 1 * p.val = 4000 * t.val + p.val; omega
  | ⟨1, _⟩ => show win0_2.index t (1 : Fin 2) * 5 + 1 * k.val = k.val; omega

theorem blk0_3 (c : Dev nD) (t : Fin cfg0.N) : iblk0 V c 3 t = V c main_arg4 := by
  obtain ⟨e0, e1⟩ := idx0_3 t
  funext y
  show V c main_arg4 (((cfg0.win 3).blk t).view.emb y) = V c main_arg4 y
  refine congrArg (V c main_arg4) (funext fun a => Fin.ext ?_)
  match a with
  | ⟨0, _⟩ => show win0_3.index t (0 : Fin 2) * 131 + 1 * (y 0).val = (y 0).val; omega
  | ⟨1, _⟩ => show win0_3.index t (1 : Fin 2) * 64 + 1 * (y 1).val = (y 1).val; omega

theorem blk0_4 (c : Dev nD) (t : Fin cfg0.N) : iblk0 V c 4 t = V c main_v34 := by
  obtain ⟨e0, e1⟩ := idx0_4 t
  funext y
  show V c main_v34 (((cfg0.win 4).blk t).view.emb y) = V c main_v34 y
  refine congrArg (V c main_v34) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

theorem blk0_5 (c : Dev nD) (t : Fin cfg0.N) : iblk0 V c 5 t = V c main_arg6 := by
  obtain ⟨e0, e1⟩ := idx0_5 t
  funext y
  show V c main_arg6 (((cfg0.win 5).blk t).view.emb y) = V c main_arg6 y
  refine congrArg (V c main_arg6) (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

theorem blk0_6 (c : Dev nD) (t : Fin cfg0.N) : iblk0 V c 6 t = V c main_v35 := by
  obtain ⟨e0, e1⟩ := idx0_6 t
  funext y
  show V c main_v35 (((cfg0.win 6).blk t).view.emb y) = V c main_v35 y
  refine congrArg (V c main_v35) (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

theorem blk0_7 (c : Dev nD) (t : Fin cfg0.N) : iblk0 V c 7 t = V c main_arg12 := by
  obtain ⟨e0, e1⟩ := idx0_7 t
  funext y
  show V c main_arg12 (((cfg0.win 7).blk t).view.emb y) = V c main_arg12 y
  refine congrArg (V c main_arg12) (funext fun a => Fin.ext ?_)
  match a with
  | ⟨0, _⟩ => show win0_7.index t (0 : Fin 2) * 64 + 1 * (y 0).val = (y 0).val; omega
  | ⟨1, _⟩ => show win0_7.index t (1 : Fin 2) * 64 + 1 * (y 1).val = (y 1).val; omega

theorem blk0_8 (c : Dev nD) (t : Fin cfg0.N) : iblk0 V c 8 t = V c main_v36 := by
  obtain ⟨e0, e1⟩ := idx0_8 t
  funext y
  show V c main_v36 (((cfg0.win 8).blk t).view.emb y) = V c main_v36 y
  refine congrArg (V c main_v36) (funext fun a => Fin.ext ?_)
  match a with
  | ⟨0, _⟩ => show win0_8.index t (0 : Fin 2) * 1 + 1 * (y 0).val = (y 0).val; omega
  | ⟨1, _⟩ => show win0_8.index t (1 : Fin 2) * 64 + 1 * (y 1).val = (y 1).val; omega

theorem blk0_9 (c : Dev nD) (t : Fin cfg0.N) : iblk0 V c 9 t = V c main_arg14 := by
  obtain ⟨e0, e1⟩ := idx0_9 t
  funext y
  show V c main_arg14 (((cfg0.win 9).blk t).view.emb y) = V c main_arg14 y
  refine congrArg (V c main_arg14) (funext fun a => Fin.ext ?_)
  match a with
  | ⟨0, _⟩ => show win0_9.index t (0 : Fin 2) * 64 + 1 * (y 0).val = (y 0).val; omega
  | ⟨1, _⟩ => show win0_9.index t (1 : Fin 2) * 1 + 1 * (y 1).val = (y 1).val; omega

/-! ## Region 0: what a point writes back, and the arrays after the region -/

theorem emb0_10 (t : Fin cfg0.N) (p : Fin 4000) (q : Fin 64) (h : 4000 * t.val + p.val < 800000) :
    ((cfg0.win 10).blk t).view.emb (ix2 p q) = ix2 (⟨4000 * t.val + p.val, h⟩ : Fin 800000) q := by
  obtain ⟨e0, e1⟩ := idx0_10 t
  refine funext fun a => Fin.ext ?_
  match a with
  | ⟨0, _⟩ => show win0_10.index t (0 : Fin 2) * 4000 + 1 * p.val = 4000 * t.val + p.val; omega
  | ⟨1, _⟩ => show win0_10.index t (1 : Fin 2) * 64 + 1 * q.val = q.val; omega

theorem emb0_11 (t : Fin cfg0.N) (p : Fin 4000) (q : Fin 3) (h : 4000 * t.val + p.val < 800000) :
    ((cfg0.win 11).blk t).view.emb (ix2 p q) = ix2 (⟨4000 * t.val + p.val, h⟩ : Fin 800000) q := by
  obtain ⟨e0, e1⟩ := idx0_11 t
  refine funext fun a => Fin.ext ?_
  match a with
  | ⟨0, _⟩ => show win0_11.index t (0 : Fin 2) * 4000 + 1 * p.val = 4000 * t.val + p.val; omega
  | ⟨1, _⟩ => show win0_11.index t (1 : Fin 2) * 3 + 1 * q.val = q.val; omega

/-- Point `t` writes back rows `4000 t … 4000 t + 3999` of the edge feature of the entry arrays. -/
theorem flushed0_10_eq (c : Dev nD) (t : Fin cfg0.N) :
    (dat0 V c).flushed 10 t = ((cfg0.win 10).blk t).view.read (Elt Ideal)
      (edgeFeat (V c main_v10) (V c main_v17) (V c main_v33) (V c main_arg4) (V c main_v34) (V c main_arg6) (V c main_v35)) := by
  show (cfg0.win 10).cut (grid0.coords t) ((dat0 V c).after 10 t) = _
  rw [after0_10]
  unfold out0_10
  rw [View.canon_unit_zero hz]
  simp only [View.ld_unit_zero (S := S4000x64) hz, View.ld_unit_zero (S := S4000x5) hz, View.ld_unit_zero (S := S131x64) hz, View.ld_unit_zero (S := S1x64) hz, View.ld_unit_zero (S := S64x64) hz]
  rw [KEdge.pay4_eq, blk0_3 V c t, blk0_4 V c t, blk0_5 V c t, blk0_6 V c t]
  funext j
  obtain ⟨p, q, rfl⟩ : ∃ (p : Fin 4000) (q : Fin 64), j = ix2 p q := ⟨j 0, j 1, eq_ix2 j⟩
  have ht : t.val < 200 := (N_0 : cfg0.N = 200) ▸ t.isLt
  have hr : 4000 * t.val + p.val < 800000 := by omega
  show edgeFeat (iblk0 V c 0 t) (iblk0 V c 1 t) (iblk0 V c 2 t) (V c main_arg4) (V c main_v34) (V c main_arg6) (V c main_v35) (ix2 p q)
    = edgeFeat (V c main_v10) (V c main_v17) (V c main_v33) (V c main_arg4) (V c main_v34) (V c main_arg6) (V c main_v35)
        (((cfg0.win 10).blk t).view.emb (ix2 p q))
  rw [emb0_10 t p q hr]
  exact edgeFeat_row _ _ _ _ _ _ _ _ _ _ p ⟨_, hr⟩ (fun k => blk0_0 V c t p k hr) (fun k => blk0_1 V c t p k hr)
    (fun k => blk0_2 V c t p k hr) q

/-- Point `t` writes back rows `4000 t … 4000 t + 3999` of the clipped translation of the entry arrays. -/
theorem flushed0_11_eq (c : Dev nD) (t : Fin cfg0.N) :
    (dat0 V c).flushed 11 t = ((cfg0.win 11).blk t).view.read (Elt Ideal)
      (trans (V c main_v33) (scaleCol (edgeFeat (V c main_v10) (V c main_v17) (V c main_v33) (V c main_arg4) (V c main_v34)
        (V c main_arg6) (V c main_v35)) (V c main_arg12) (V c main_v36) (V c main_arg14))) := by
  show (cfg0.win 11).cut (grid0.coords t) ((dat0 V c).after 11 t) = _
  rw [after0_11]
  unfold out0_11
  rw [View.canon_unit_zero hz]
  simp only [View.ld_unit_zero (S := S4000x64) hz, View.ld_unit_zero (S := S4000x5) hz, View.ld_unit_zero (S := S131x64) hz, View.ld_unit_zero (S := S1x64) hz, View.ld_unit_zero (S := S64x64) hz, View.ld_unit_zero (S := S64x1) hz]
  rw [KEdge.pay1_eq, blk0_3 V c t, blk0_4 V c t, blk0_5 V c t, blk0_6 V c t, blk0_7 V c t, blk0_8 V c t, blk0_9 V c t]
  funext j
  obtain ⟨p, d, rfl⟩ : ∃ (p : Fin 4000) (d : Fin 3), j = ix2 p d := ⟨j 0, j 1, eq_ix2 j⟩
  have ht : t.val < 200 := (N_0 : cfg0.N = 200) ▸ t.isLt
  have hr : 4000 * t.val + p.val < 800000 := by omega
  show trans (iblk0 V c 2 t) (scaleCol (edgeFeat (iblk0 V c 0 t) (iblk0 V c 1 t) (iblk0 V c 2 t) (V c main_arg4) (V c main_v34)
        (V c main_arg6) (V c main_v35)) (V c main_arg12) (V c main_v36) (V c main_arg14)) (ix2 p d)
    = trans (V c main_v33) (scaleCol (edgeFeat (V c main_v10) (V c main_v17) (V c main_v33) (V c main_arg4) (V c main_v34)
        (V c main_arg6) (V c main_v35)) (V c main_arg12) (V c main_v36) (V c main_arg14)) (((cfg0.win 11).blk t).view.emb (ix2 p d))
  rw [emb0_11 t p d hr]
  refine trans_row _ _ _ _ p ⟨_, hr⟩ (fun k => blk0_2 V c t p k hr) ?_ d
  refine scaleCol_row _ _ _ _ _ p ⟨_, hr⟩ (fun k => ?_) 0
  exact edgeFeat_row _ _ _ _ _ _ _ _ _ _ p ⟨_, hr⟩ (fun k => blk0_0 V c t p k hr) (fun k => blk0_1 V c t p k hr)
    (fun k => blk0_2 V c t p k hr) k

theorem mem_blk0_10 (t : Fin cfg0.N) (i : S800000x64.Idx) :
    i ∈ ((cfg0.win 10).blk t).view.set ↔ ∀ a : Fin 2, win0_10.index t a * S4000x64.size a ≤ (i a).val ∧ (i a).val < win0_10.index t a * S4000x64.size a + S4000x64.size a := by
  show i ∈ ((View.whole main_v37_0).slice (win0_10.rect t)).set ↔ _
  rw [View.set_slice_whole, Rect.mem_set_unit]
  exact Iff.rfl

/-- Row `r` of the array lies in the block of point `r / 4000`. -/
theorem cover0_10 (i : S800000x64.Idx) :
    ∃ t : Fin cfg0.N, (cfg0.win 10).flush t = true ∧ i ∈ ((cfg0.win 10).blk t).view.set := by
  have hi0 : (i 0).val < 800000 := (i 0).isLt
  have hi1 : (i 1).val < 64 := (i 1).isLt
  have hN : cfg0.N = 200 := N_0
  have ht : (i 0).val / 4000 < cfg0.N := by rw [hN]; omega
  obtain ⟨e0, e1⟩ := idx0_10 ⟨(i 0).val / 4000, ht⟩
  refine ⟨⟨(i 0).val / 4000, ht⟩, flush0_10 _, ?_⟩
  rw [mem_blk0_10]
  intro a
  match a with
  | ⟨0, _⟩ =>
    show win0_10.index ⟨(i 0).val / 4000, ht⟩ (0 : Fin 2) * 4000 ≤ (i 0).val ∧ (i 0).val < win0_10.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_10.index ⟨(i 0).val / 4000, ht⟩ (1 : Fin 2) * 64 ≤ (i 1).val ∧ (i 1).val < win0_10.index ⟨(i 0).val / 4000, ht⟩ (1 : Fin 2) * 64 + 64
    rw [e1]; omega

theorem mem_blk0_11 (t : Fin cfg0.N) (i : S800000x3.Idx) :
    i ∈ ((cfg0.win 11).blk t).view.set ↔ ∀ a : Fin 2, win0_11.index t a * S4000x3.size a ≤ (i a).val ∧ (i a).val < win0_11.index t a * S4000x3.size a + S4000x3.size a := by
  show i ∈ ((View.whole main_v37_1).slice (win0_11.rect t)).set ↔ _
  rw [View.set_slice_whole, Rect.mem_set_unit]
  exact Iff.rfl

/-- Row `r` of the array lies in the block of point `r / 4000`. -/
theorem cover0_11 (i : S800000x3.Idx) :
    ∃ t : Fin cfg0.N, (cfg0.win 11).flush t = true ∧ i ∈ ((cfg0.win 11).blk t).view.set := by
  have hi0 : (i 0).val < 800000 := (i 0).isLt
  have hi1 : (i 1).val < 3 := (i 1).isLt
  have hN : cfg0.N = 200 := N_0
  have ht : (i 0).val / 4000 < cfg0.N := by rw [hN]; omega
  obtain ⟨e0, e1⟩ := idx0_11 ⟨(i 0).val / 4000, ht⟩
  refine ⟨⟨(i 0).val / 4000, ht⟩, flush0_11 _, ?_⟩
  rw [mem_blk0_11]
  intro a
  match a with
  | ⟨0, _⟩ =>
    show win0_11.index ⟨(i 0).val / 4000, ht⟩ (0 : Fin 2) * 4000 ≤ (i 0).val ∧ (i 0).val < win0_11.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_11.index ⟨(i 0).val / 4000, ht⟩ (1 : Fin 2) * 3 ≤ (i 1).val ∧ (i 1).val < win0_11.index ⟨(i 0).val / 4000, ht⟩ (1 : Fin 2) * 3 + 3
    rw [e1]; omega

/-- After the edge region its feature array is the edge feature of the entry arrays. -/
theorem final0_10 (c : Dev nD) :
    (dat0 V c).arrAt 10 cfg0.N
      = edgeFeat (V c main_v10) (V c main_v17) (V c main_v33) (V c main_arg4) (V c main_v34) (V c main_arg6) (V c main_v35) :=
  (dat0 V c).arrAt_eq_of_cover 10 _ (fun t _ => flushed0_10_eq V c t) cover0_10

/-- After the edge region its translation array is the clipped translation of the entry arrays. -/
theorem final0_11 (c : Dev nD) :
    (dat0 V c).arrAt 11 cfg0.N
      = trans (V c main_v33) (scaleCol (edgeFeat (V c main_v10) (V c main_v17) (V c main_v33) (V c main_arg4) (V c main_v34)
        (V c main_arg6) (V c main_v35)) (V c main_arg12) (V c main_v36) (V c main_arg14)) :=
  (dat0 V c).arrAt_eq_of_cover 11 _ (fun t _ => flushed0_11_eq V c t) cover0_11

/-! ## Region 1 (the node kernel, 25 points of 2000 rows): the input blocks -/

theorem blk1_0 (c : Dev nD) (t : Fin cfg1.N) (p : Fin 2000) (k : Fin 64) (h : 2000 * t.val + p.val < 50000) :
    iblk1 V c 0 t (ix2 p k) = V c main_arg0 (ix2 (⟨2000 * t.val + p.val, h⟩ : Fin 50000) k) := by
  obtain ⟨e0, e1⟩ := idx1_0 t
  show V c main_arg0 (((cfg1.win 0).blk t).view.emb (ix2 p k)) = _
  refine congrArg (V c main_arg0) (funext fun a => Fin.ext ?_)
  match a with
  | ⟨0, _⟩ => show win1_0.index t (0 : Fin 2) * 2000 + 1 * p.val = 2000 * t.val + p.val; omega
  | ⟨1, _⟩ => show win1_0.index t (1 : Fin 2) * 64 + 1 * k.val = k.val; omega

theorem blk1_1 (c : Dev nD) (t : Fin cfg1.N) (p : Fin 2000) (k : Fin 64) (h : 2000 * t.val + p.val < 50000) :
    iblk1 V c 1 t (ix2 p k) = V c main_v47 (ix2 (⟨2000 * t.val + p.val, h⟩ : Fin 50000) k) := by
  obtain ⟨e0, e1⟩ := idx1_1 t
  show V c main_v47 (((cfg1.win 1).blk t).view.emb (ix2 p k)) = _
  refine congrArg (V c main_v47) (funext fun a => Fin.ext ?_)
  match a with
  | ⟨0, _⟩ => show win1_1.index t (0 : Fin 2) * 2000 + 1 * p.val = 2000 * t.val + p.val; omega
  | ⟨1, _⟩ => show win1_1.index t (1 : Fin 2) * 64 + 1 * k.val = k.val; omega

theorem blk1_2 (c : Dev nD) (t : Fin cfg1.N) (p : Fin 2000) (k : Fin 3) (h : 2000 * t.val + p.val < 50000) :
    iblk1 V c 2 t (ix2 p k) = V c main_arg1 (ix2 (⟨2000 * t.val + p.val, h⟩ : Fin 50000) k) := by
  obtain ⟨e0, e1⟩ := idx1_2 t
  show V c main_arg1 (((cfg1.win 2).blk t).view.emb (ix2 p k)) = _
  refine congrArg (V c main_arg1) (funext fun a => Fin.ext ?_)
  match a with
  | ⟨0, _⟩ => show win1_2.index t (0 : Fin 2) * 2000 + 1 * p.val = 2000 * t.val + p.val; omega
  | ⟨1, _⟩ => show win1_2.index t (1 : Fin 2) * 3 + 1 * k.val = k.val; omega

theorem blk1_3 (c : Dev nD) (t : Fin cfg1.N) (p : Fin 2000) (k : Fin 3) (h : 2000 * t.val + p.val < 50000) :
    iblk1 V c 3 t (ix2 p k) = V c main_v40 (ix2 (⟨2000 * t.val + p.val, h⟩ : Fin 50000) k) := by
  obtain ⟨e0, e1⟩ := idx1_3 t
  show V c main_v40 (((cfg1.win 3).blk t).view.emb (ix2 p k)) = _
  refine congrArg (V c main_v40) (funext fun a => Fin.ext ?_)
  match a with
  | ⟨0, _⟩ => show win1_3.index t (0 : Fin 2) * 2000 + 1 * p.val = 2000 * t.val + p.val; omega
  | ⟨1, _⟩ => show win1_3.index t (1 : Fin 2) * 3 + 1 * k.val = k.val; omega

theorem blk1_4 (c : Dev nD) (t : Fin cfg1.N) (p : Fin 2000) (k : Fin 1) (h : 2000 * t.val + p.val < 50000) :
    iblk1 V c 4 t (ix2 p k) = V c main_v50 (ix2 (⟨2000 * t.val + p.val, h⟩ : Fin 50000) k) := by
  obtain ⟨e0, e1⟩ := idx1_4 t
  show V c main_v50 (((cfg1.win 4).blk t).view.emb (ix2 p k)) = _
  refine congrArg (V c main_v50) (funext fun a => Fin.ext ?_)
  match a with
  | ⟨0, _⟩ => show win1_4.index t (0 : Fin 2) * 2000 + 1 * p.val = 2000 * t.val + p.val; omega
  | ⟨1, _⟩ => show win1_4.index t (1 : Fin 2) * 1 + 1 * k.val = k.val; omega

theorem blk1_5 (c : Dev nD) (t : Fin cfg1.N) : iblk1 V c 5 t = V c main_arg8 := by
  obtain ⟨e0, e1⟩ := idx1_5 t
  funext y
  show V c main_arg8 (((cfg1.win 5).blk t).view.emb y) = V c main_arg8 y
  refine congrArg (V c main_arg8) (funext fun a => Fin.ext ?_)
  match a with
  | ⟨0, _⟩ => show win1_5.index t (0 : Fin 2) * 128 + 1 * (y 0).val = (y 0).val; omega
  | ⟨1, _⟩ => show win1_5.index t (1 : Fin 2) * 64 + 1 * (y 1).val = (y 1).val; omega

theorem blk1_6 (c : Dev nD) (t : Fin cfg1.N) : iblk1 V c 6 t = V c main_v48 := by
  obtain ⟨e0, e1⟩ := idx1_6 t
  funext y
  show V c main_v48 (((cfg1.win 6).blk t).view.emb y) = V c main_v48 y
  refine congrArg (V c main_v48) (funext fun a => Fin.ext ?_)
  match a with
  | ⟨0, _⟩ => show win1_6.index t (0 : Fin 2) * 1 + 1 * (y 0).val = (y 0).val; omega
  | ⟨1, _⟩ => show win1_6.index t (1 : Fin 2) * 64 + 1 * (y 1).val = (y 1).val; omega

theorem blk1_7 (c : Dev nD) (t : Fin cfg1.N) : iblk1 V c 7 t = V c main_arg10 := by
  obtain ⟨e0, e1⟩ := idx1_7 t
  funext y
  show V c main_arg10 (((cfg1.win 7).blk t).view.emb y) = V c main_arg10 y
  refine congrArg (V c main_arg10) (funext fun a => Fin.ext ?_)
  match a with
  | ⟨0, _⟩ => show win1_7.index t (0 : Fin 2) * 64 + 1 * (y 0).val = (y 0).val; omega
  | ⟨1, _⟩ => show win1_7.index t (1 : Fin 2) * 64 + 1 * (y 1).val = (y 1).val; omega

theorem blk1_8 (c : Dev nD) (t : Fin cfg1.N) : iblk1 V c 8 t = V c main_v49 := by
  obtain ⟨e0, e1⟩ := idx1_8 t
  funext y
  show V c main_v49 (((cfg1.win 8).blk t).view.emb y) = V c main_v49 y
  refine congrArg (V c main_v49) (funext fun a => Fin.ext ?_)
  match a with
  | ⟨0, _⟩ => show win1_8.index t (0 : Fin 2) * 1 + 1 * (y 0).val = (y 0).val; omega
  | ⟨1, _⟩ => show win1_8.index t (1 : Fin 2) * 64 + 1 * (y 1).val = (y 1).val; omega

/-! ## Region 1: what a point writes back, and the arrays after the region -/

theorem emb1_9 (t : Fin cfg1.N) (p : Fin 2000) (q : Fin 64) (h : 2000 * t.val + p.val < 50000) :
    ((cfg1.win 9).blk t).view.emb (ix2 p q) = ix2 (⟨2000 * t.val + p.val, h⟩ : Fin 50000) q := by
  obtain ⟨e0, e1⟩ := idx1_9 t
  refine funext fun a => Fin.ext ?_
  match a with
  | ⟨0, _⟩ => show win1_9.index t (0 : Fin 2) * 2000 + 1 * p.val = 2000 * t.val + p.val; omega
  | ⟨1, _⟩ => show win1_9.index t (1 : Fin 2) * 64 + 1 * q.val = q.val; omega

theorem emb1_10 (t : Fin cfg1.N) (p : Fin 2000) (q : Fin 3) (h : 2000 * t.val + p.val < 50000) :
    ((cfg1.win 10).blk t).view.emb (ix2 p q) = ix2 (⟨2000 * t.val + p.val, h⟩ : Fin 50000) q := by
  obtain ⟨e0, e1⟩ := idx1_10 t
  refine funext fun a => Fin.ext ?_
  match a with
  | ⟨0, _⟩ => show win1_10.index t (0 : Fin 2) * 2000 + 1 * p.val = 2000 * t.val + p.val; omega
  | ⟨1, _⟩ => show win1_10.index t (1 : Fin 2) * 3 + 1 * q.val = q.val; omega

/-- Point `t` writes back rows `2000 t … 2000 t + 1999` of the updated node features of the entry arrays. -/
theorem flushed1_9_eq (c : Dev nD) (t : Fin cfg1.N) :
    (dat1 V c).flushed 9 t = ((cfg1.win 9).blk t).view.read (Elt Ideal)
      (nodeH (V c main_arg0) (V c main_v47) (V c main_arg8) (V c main_v48) (V c main_arg10) (V c main_v49)) := by
  show (cfg1.win 9).cut (grid1.coords t) ((dat1 V c).after 9 t) = _
  rw [after1_9]
  unfold out1_9
  rw [View.canon_unit_zero hz]
  simp only [View.ld_unit_zero (S := S2000x64) hz, View.ld_unit_zero (S := S128x64) hz, View.ld_unit_zero (S := S1x64) hz, View.ld_unit_zero (S := S64x64) hz]
  rw [KNode.pay1_eq, blk1_5 V c t, blk1_6 V c t, blk1_7 V c t, blk1_8 V c t]
  funext j
  obtain ⟨p, q, rfl⟩ : ∃ (p : Fin 2000) (q : Fin 64), j = ix2 p q := ⟨j 0, j 1, eq_ix2 j⟩
  have ht : t.val < 25 := (N_1 : cfg1.N = 25) ▸ t.isLt
  have hr : 2000 * t.val + p.val < 50000 := by omega
  show nodeH (iblk1 V c 0 t) (iblk1 V c 1 t) (V c main_arg8) (V c main_v48) (V c main_arg10) (V c main_v49) (ix2 p q)
    = nodeH (V c main_arg0) (V c main_v47) (V c main_arg8) (V c main_v48) (V c main_arg10) (V c main_v49)
        (((cfg1.win 9).blk t).view.emb (ix2 p q))
  rw [emb1_9 t p q hr]
  exact nodeH_row _ _ _ _ _ _ _ _ p ⟨_, hr⟩ (fun k => blk1_0 V c t p k hr) (fun k => blk1_1 V c t p k hr) q

/-- Point `t` writes back rows `2000 t … 2000 t + 1999` of the updated coordinates of the entry arrays. -/
theorem flushed1_10_eq (c : Dev nD) (t : Fin cfg1.N) :
    (dat1 V c).flushed 10 t = ((cfg1.win 10).blk t).view.read (Elt Ideal)
      (nodeC (V c main_arg1) (V c main_v40) (V c main_v50)) := by
  show (cfg1.win 10).cut (grid1.coords t) ((dat1 V c).after 10 t) = _
  rw [after1_10]
  unfold out1_10
  rw [View.canon_unit_zero hz]
  simp only [View.ld_unit_zero (S := S2000x3) hz, View.ld_unit_zero (S := S2000x1) hz]
  rw [KNode.pay2_eq]
  funext j
  obtain ⟨p, d, rfl⟩ : ∃ (p : Fin 2000) (d : Fin 3), j = ix2 p d := ⟨j 0, j 1, eq_ix2 j⟩
  have ht : t.val < 25 := (N_1 : cfg1.N = 25) ▸ t.isLt
  have hr : 2000 * t.val + p.val < 50000 := by omega
  show nodeC (iblk1 V c 2 t) (iblk1 V c 3 t) (iblk1 V c 4 t) (ix2 p d)
    = nodeC (V c main_arg1) (V c main_v40) (V c main_v50) (((cfg1.win 10).blk t).view.emb (ix2 p d))
  rw [emb1_10 t p d hr]
  exact nodeC_row _ _ _ _ _ _ p ⟨_, hr⟩ (fun k => blk1_2 V c t p k hr) (fun k => blk1_3 V c t p k hr) (blk1_4 V c t p 0 hr) d

theorem mem_blk1_9 (t : Fin cfg1.N) (i : S50000x64.Idx) :
    i ∈ ((cfg1.win 9).blk t).view.set ↔ ∀ a : Fin 2, win1_9.index t a * S2000x64.size a ≤ (i a).val ∧ (i a).val < win1_9.index t a * S2000x64.size a + S2000x64.size a := by
  show i ∈ ((View.whole main_v51_0).slice (win1_9.rect t)).set ↔ _
  rw [View.set_slice_whole, Rect.mem_set_unit]
  exact Iff.rfl

/-- Row `r` of the array lies in the block of point `r / 2000`. -/
theorem cover1_9 (i : S50000x64.Idx) :
    ∃ t : Fin cfg1.N, (cfg1.win 9).flush t = true ∧ i ∈ ((cfg1.win 9).blk t).view.set := by
  have hi0 : (i 0).val < 50000 := (i 0).isLt
  have hi1 : (i 1).val < 64 := (i 1).isLt
  have hN : cfg1.N = 25 := N_1
  have ht : (i 0).val / 2000 < cfg1.N := by rw [hN]; omega
  obtain ⟨e0, e1⟩ := idx1_9 ⟨(i 0).val / 2000, ht⟩
  refine ⟨⟨(i 0).val / 2000, ht⟩, flush1_9 _, ?_⟩
  rw [mem_blk1_9]
  intro a
  match a with
  | ⟨0, _⟩ =>
    show win1_9.index ⟨(i 0).val / 2000, ht⟩ (0 : Fin 2) * 2000 ≤ (i 0).val ∧ (i 0).val < win1_9.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_9.index ⟨(i 0).val / 2000, ht⟩ (1 : Fin 2) * 64 ≤ (i 1).val ∧ (i 1).val < win1_9.index ⟨(i 0).val / 2000, ht⟩ (1 : Fin 2) * 64 + 64
    rw [e1]; omega

theorem mem_blk1_10 (t : Fin cfg1.N) (i : S50000x3.Idx) :
    i ∈ ((cfg1.win 10).blk t).view.set ↔ ∀ a : Fin 2, win1_10.index t a * S2000x3.size a ≤ (i a).val ∧ (i a).val < win1_10.index t a * S2000x3.size a + S2000x3.size a := by
  show i ∈ ((View.whole main_v51_1).slice (win1_10.rect t)).set ↔ _
  rw [View.set_slice_whole, Rect.mem_set_unit]
  exact Iff.rfl

/-- Row `r` of the array lies in the block of point `r / 2000`. -/
theorem cover1_10 (i : S50000x3.Idx) :
    ∃ t : Fin cfg1.N, (cfg1.win 10).flush t = true ∧ i ∈ ((cfg1.win 10).blk t).view.set := by
  have hi0 : (i 0).val < 50000 := (i 0).isLt
  have hi1 : (i 1).val < 3 := (i 1).isLt
  have hN : cfg1.N = 25 := N_1
  have ht : (i 0).val / 2000 < cfg1.N := by rw [hN]; omega
  obtain ⟨e0, e1⟩ := idx1_10 ⟨(i 0).val / 2000, ht⟩
  refine ⟨⟨(i 0).val / 2000, ht⟩, flush1_10 _, ?_⟩
  rw [mem_blk1_10]
  intro a
  match a with
  | ⟨0, _⟩ =>
    show win1_10.index ⟨(i 0).val / 2000, ht⟩ (0 : Fin 2) * 2000 ≤ (i 0).val ∧ (i 0).val < win1_10.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_10.index ⟨(i 0).val / 2000, ht⟩ (1 : Fin 2) * 3 ≤ (i 1).val ∧ (i 1).val < win1_10.index ⟨(i 0).val / 2000, ht⟩ (1 : Fin 2) * 3 + 3
    rw [e1]; omega

/-- After the node region its feature array is the updated node features of the entry arrays. -/
theorem final1_9 (c : Dev nD) :
    (dat1 V c).arrAt 9 cfg1.N
      = nodeH (V c main_arg0) (V c main_v47) (V c main_arg8) (V c main_v48) (V c main_arg10) (V c main_v49) :=
  (dat1 V c).arrAt_eq_of_cover 9 _ (fun t _ => flushed1_9_eq V c t) cover1_9

/-- After the node region its coordinate array is the updated coordinates of the entry arrays. -/
theorem final1_10 (c : Dev nD) :
    (dat1 V c).arrAt 10 cfg1.N = nodeC (V c main_arg1) (V c main_v40) (V c main_v50) :=
  (dat1 V c).arrAt_eq_of_cover 10 _ (fun t _ => flushed1_10_eq V c t) cover1_10

end Cert.KernelIdeal.KVal

end
-- ==== Proof.KHost.lean ====
import proofs.«177892_j11751030522785_1_alg».proof.Proof.KernelIdealFrameP
import proofs.«177892_j11751030522785_1_alg».proof.Proof.Gen.ReferenceIdeal.Read

/-!
# The host stretches of the kernel's program, read at the buffers its two regions enter with

Each array a region of the kernel's program is entered with is either an argument as launched or the value of
a few host operations on the arguments (a gather by the normalised row or column indices, the coordinate
differences beside the edge attributes, a bias as a one-row matrix) — for the second region also a scatter-add of
what the first region left. These are the same host operations the reference applies, so each is named by the
reference's own stage function of the same arguments.
-/

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ) (ρ : Dev nD → PrngReg)

/-! ## The first region's entry: the first host stretch over the launch memory -/

theorem V1_a0 (c : Dev nD) : V1 m ρ c main_arg0 = m ((c : Thread nD τ).loc main_arg0) := by
  show StableHlo.after hostOps0 (W0 m ρ c) (Proc.devRef .tc main_arg0) = _
  after_results_simp

theorem V1_a1 (c : Dev nD) : V1 m ρ c main_arg1 = m ((c : Thread nD τ).loc main_arg1) := by
  show StableHlo.after hostOps0 (W0 m ρ c) (Proc.devRef .tc main_arg1) = _
  after_results_simp

theorem V1_a4 (c : Dev nD) : V1 m ρ c main_arg4 = m ((c : Thread nD τ).loc main_arg4) := by
  show StableHlo.after hostOps0 (W0 m ρ c) (Proc.devRef .tc main_arg4) = _
  after_results_simp

theorem V1_a6 (c : Dev nD) : V1 m ρ c main_arg6 = m ((c : Thread nD τ).loc main_arg6) := by
  show StableHlo.after hostOps0 (W0 m ρ c) (Proc.devRef .tc main_arg6) = _
  after_results_simp

theorem V1_a8 (c : Dev nD) : V1 m ρ c main_arg8 = m ((c : Thread nD τ).loc main_arg8) := by
  show StableHlo.after hostOps0 (W0 m ρ c) (Proc.devRef .tc main_arg8) = _
  after_results_simp

theorem V1_a9 (c : Dev nD) : V1 m ρ c main_arg9 = m ((c : Thread nD τ).loc main_arg9) := by
  show StableHlo.after hostOps0 (W0 m ρ c) (Proc.devRef .tc main_arg9) = _
  after_results_simp

theorem V1_a10 (c : Dev nD) : V1 m ρ c main_arg10 = m ((c : Thread nD τ).loc main_arg10) := by
  show StableHlo.after hostOps0 (W0 m ρ c) (Proc.devRef .tc main_arg10) = _
  after_results_simp

theorem V1_a11 (c : Dev nD) : V1 m ρ c main_arg11 = m ((c : Thread nD τ).loc main_arg11) := by
  show StableHlo.after hostOps0 (W0 m ρ c) (Proc.devRef .tc main_arg11) = _
  after_results_simp

theorem V1_a12 (c : Dev nD) : V1 m ρ c main_arg12 = m ((c : Thread nD τ).loc main_arg12) := by
  show StableHlo.after hostOps0 (W0 m ρ c) (Proc.devRef .tc main_arg12) = _
  after_results_simp

theorem V1_a14 (c : Dev nD) : V1 m ρ c main_arg14 = m ((c : Thread nD τ).loc main_arg14) := by
  show StableHlo.after hostOps0 (W0 m ρ c) (Proc.devRef .tc main_arg14) = _
  after_results_simp

/-- The row indices (row 0 of the edge index array, as a vector). -/
theorem W1_v1 (c : Dev nD) :
    W1 m ρ c (Proc.devRef .tc main_v1) = Cert.ReferenceIdeal.Read.val_main_v1 (F := Ideal) (m ((c : Thread nD τ).loc main_arg2)) := by
  show StableHlo.after hostOps0 (W0 m ρ c) (Proc.devRef .tc main_v1) = _
  after_results_simp
  simp only [Cert.ReferenceIdeal.Read.val_main_v1, Cert.ReferenceIdeal.Read.val_main_v0]
  rfl

/-- The source features gathered by the normalised row indices. -/
theorem V1_v10 (c : Dev nD) :
    V1 m ρ c main_v10 = Cert.ReferenceIdeal.Read.val_main_v28 (F := Ideal) (m ((c : Thread nD τ).loc main_arg0)) (m ((c : Thread nD τ).loc main_arg2)) := by
  show StableHlo.after hostOps0 (W0 m ρ c) (Proc.devRef .tc main_v10) = _
  after_results_simp
  simp only [Cert.ReferenceIdeal.Read.val_main_v28, Cert.ReferenceIdeal.Read.val_main_v27, Cert.ReferenceIdeal.Read.val_main_v26, Cert.ReferenceIdeal.Read.val_main_v25, Cert.ReferenceIdeal.Read.val_main_v24, Cert.ReferenceIdeal.Read.val_main_v23, Cert.ReferenceIdeal.Read.val_main_v22, Cert.ReferenceIdeal.Read.val_main_c_3, Cert.ReferenceIdeal.Read.val_main_c_4, Cert.ReferenceIdeal.Read.val_main_v1, Cert.ReferenceIdeal.Read.val_main_v0]
  rfl

/-- The target features gathered by the normalised column indices. -/
theorem V1_v17 (c : Dev nD) :
    V1 m ρ c main_v17 = Cert.ReferenceIdeal.Read.val_main_v35 (F := Ideal) (m ((c : Thread nD τ).loc main_arg0)) (m ((c : Thread nD τ).loc main_arg2)) := by
  show StableHlo.after hostOps0 (W0 m ρ c) (Proc.devRef .tc main_v17) = _
  after_results_simp
  simp only [Cert.ReferenceIdeal.Read.val_main_v35, Cert.ReferenceIdeal.Read.val_main_v34, Cert.ReferenceIdeal.Read.val_main_v33, Cert.ReferenceIdeal.Read.val_main_v32, Cert.ReferenceIdeal.Read.val_main_v31, Cert.ReferenceIdeal.Read.val_main_v30, Cert.ReferenceIdeal.Read.val_main_v29, Cert.ReferenceIdeal.Read.val_main_c_5, Cert.ReferenceIdeal.Read.val_main_c_6, Cert.ReferenceIdeal.Read.val_main_v3, Cert.ReferenceIdeal.Read.val_main_v2]
  rfl

/-- The coordinate differences beside the edge attributes. -/
theorem V1_v33 (c : Dev nD) :
    V1 m ρ c main_v33 = concatenate S800000x5 1 [⟨S800000x3, Cert.ReferenceIdeal.Read.val_main_v18 (F := Ideal) (m ((c : Thread nD τ).loc main_arg1)) (m ((c : Thread nD τ).loc main_arg2))⟩, ⟨S800000x2, m ((c : Thread nD τ).loc main_arg3)⟩] concatenates_S800000x3_S800000x2_S800000x5_d1 := by
  show StableHlo.after hostOps0 (W0 m ρ c) (Proc.devRef .tc main_v33) = _
  after_results_simp
  simp only [Cert.ReferenceIdeal.Read.val_main_v18, Cert.ReferenceIdeal.Read.val_main_v17, Cert.ReferenceIdeal.Read.val_main_v16, Cert.ReferenceIdeal.Read.val_main_v15, Cert.ReferenceIdeal.Read.val_main_v14, Cert.ReferenceIdeal.Read.val_main_v13, Cert.ReferenceIdeal.Read.val_main_v12, Cert.ReferenceIdeal.Read.val_main_v11, Cert.ReferenceIdeal.Read.val_main_c_1, Cert.ReferenceIdeal.Read.val_main_c_2, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_v5, Cert.ReferenceIdeal.Read.val_main_v4, Cert.ReferenceIdeal.Read.val_main_c, Cert.ReferenceIdeal.Read.val_main_c_0, Cert.ReferenceIdeal.Read.val_main_v3, Cert.ReferenceIdeal.Read.val_main_v2, Cert.ReferenceIdeal.Read.val_main_v1, Cert.ReferenceIdeal.Read.val_main_v0]
  rfl

/-- The three biases of the edge region as one-row matrices. -/
theorem V1_v34 (c : Dev nD) : V1 m ρ c main_v34 = shapeCast S1x64 (m ((c : Thread nD τ).loc main_arg5)) shapeCasts_S64_S1x64 := by
  show StableHlo.after hostOps0 (W0 m ρ c) (Proc.devRef .tc main_v34) = _
  after_results_simp
  rfl
theorem V1_v35 (c : Dev nD) : V1 m ρ c main_v35 = shapeCast S1x64 (m ((c : Thread nD τ).loc main_arg7)) shapeCasts_S64_S1x64 := by
  show StableHlo.after hostOps0 (W0 m ρ c) (Proc.devRef .tc main_v35) = _
  after_results_simp
  rfl
theorem V1_v36 (c : Dev nD) : V1 m ρ c main_v36 = shapeCast S1x64 (m ((c : Thread nD τ).loc main_arg13)) shapeCasts_S64_S1x64 := by
  show StableHlo.after hostOps0 (W0 m ρ c) (Proc.devRef .tc main_v36) = _
  after_results_simp
  rfl

/-! ## The second region's entry: the second host stretch over what the first region left -/

theorem V3_a0 (c : Dev nD) : V3 m ρ c main_arg0 = m ((c : Thread nD τ).loc main_arg0) := by
  show StableHlo.after hostOps1 (W2 m ρ c) (Proc.devRef .tc main_arg0) = _
  after_results_simp
  rw [W2_of_ne m ρ c main_arg0 (by decide)]
  exact V1_a0 m ρ c

theorem V3_a1 (c : Dev nD) : V3 m ρ c main_arg1 = m ((c : Thread nD τ).loc main_arg1) := by
  show StableHlo.after hostOps1 (W2 m ρ c) (Proc.devRef .tc main_arg1) = _
  after_results_simp
  rw [W2_of_ne m ρ c main_arg1 (by decide)]
  exact V1_a1 m ρ c

theorem V3_a8 (c : Dev nD) : V3 m ρ c main_arg8 = m ((c : Thread nD τ).loc main_arg8) := by
  show StableHlo.after hostOps1 (W2 m ρ c) (Proc.devRef .tc main_arg8) = _
  after_results_simp
  rw [W2_of_ne m ρ c main_arg8 (by decide)]
  exact V1_a8 m ρ c

theorem V3_a10 (c : Dev nD) : V3 m ρ c main_arg10 = m ((c : Thread nD τ).loc main_arg10) := by
  show StableHlo.after hostOps1 (W2 m ρ c) (Proc.devRef .tc main_arg10) = _
  after_results_simp
  rw [W2_of_ne m ρ c main_arg10 (by decide)]
  exact V1_a10 m ρ c

/-- The two biases of the node region as one-row matrices. -/
theorem V3_v48 (c : Dev nD) : V3 m ρ c main_v48 = shapeCast S1x64 (m ((c : Thread nD τ).loc main_arg9)) shapeCasts_S64_S1x64 := by
  show StableHlo.after hostOps1 (W2 m ρ c) (Proc.devRef .tc main_v48) = _
  after_results_simp
  rw [W2_of_ne m ρ c main_arg9 (by decide)]
  exact congrArg (shapeCast S1x64 · shapeCasts_S64_S1x64) (V1_a9 m ρ c)
theorem V3_v49 (c : Dev nD) : V3 m ρ c main_v49 = shapeCast S1x64 (m ((c : Thread nD τ).loc main_arg11)) shapeCasts_S64_S1x64 := by
  show StableHlo.after hostOps1 (W2 m ρ c) (Proc.devRef .tc main_v49) = _
  after_results_simp
  rw [W2_of_ne m ρ c main_arg11 (by decide)]
  exact congrArg (shapeCast S1x64 · shapeCasts_S64_S1x64) (V1_a11 m ρ c)

/-- The aggregated edge features: the scatter-add, by the row indices, of the first region's feature array. -/
theorem V3_v47 (c : Dev nD) :
    V3 m ρ c main_v47 = (Host.scatterAdd (F := Ideal) (φ := .f32) scatter_S50000x64_S800000x1_S800000x64_1_0_0_1
      (Cert.ReferenceIdeal.Read.val_main_v68 (F := Ideal)) (Cert.ReferenceIdeal.Read.val_main_v69 (F := Ideal) (m ((c : Thread nD τ).loc main_arg2)))
      ((dat0 (V1 m ρ) c).arrAt 10 cfg0.N) : FVec Ideal S50000x64 .f32) := by
  show StableHlo.after hostOps1 (W2 m ρ c) (Proc.devRef .tc main_v47) = _
  after_results_simp
  rw [W2_of_ne m ρ c main_v1 (by decide), W1_v1 m ρ c, (W2_arr m ρ c 10 : W2 m ρ c (Proc.devRef .tc main_v37_0) = _)]
  simp only [Cert.ReferenceIdeal.Read.val_main_v68, Cert.ReferenceIdeal.Read.val_main_v69, Cert.ReferenceIdeal.Read.val_main_cst_13]

/-- The aggregated translations: the scatter-add, by the row indices, of the first region's translation array. -/
theorem V3_v40 (c : Dev nD) :
    V3 m ρ c main_v40 = (Host.scatterAdd (F := Ideal) (φ := .f32) scatter_S50000x3_S800000x1_S800000x3_1_0_0_1
      (Cert.ReferenceIdeal.Read.val_main_v56 (F := Ideal)) (Cert.ReferenceIdeal.Read.val_main_v57 (F := Ideal) (m ((c : Thread nD τ).loc main_arg2)))
      ((dat0 (V1 m ρ) c).arrAt 11 cfg0.N) : FVec Ideal S50000x3 .f32) := by
  show StableHlo.after hostOps1 (W2 m ρ c) (Proc.devRef .tc main_v40) = _
  after_results_simp
  rw [W2_of_ne m ρ c main_v1 (by decide), W1_v1 m ρ c, (W2_arr m ρ c 11 : W2 m ρ c (Proc.devRef .tc main_v37_1) = _)]
  simp only [Cert.ReferenceIdeal.Read.val_main_v56, Cert.ReferenceIdeal.Read.val_main_v57, Cert.ReferenceIdeal.Read.val_main_cst_9]

/-- The edge counts as a column: the scatter-add of ones by the row indices, reshaped. -/
theorem V3_v50 (c : Dev nD) :
    V3 m ρ c main_v50 = shapeCast S50000x1 (Cert.ReferenceIdeal.Read.val_main_v62 (F := Ideal) (m ((c : Thread nD τ).loc main_arg2))) shapeCasts_S50000_S50000x1 := by
  show StableHlo.after hostOps1 (W2 m ρ c) (Proc.devRef .tc main_v50) = _
  after_results_simp
  rw [W2_of_ne m ρ c main_v1 (by decide), W1_v1 m ρ c]
  simp only [Cert.ReferenceIdeal.Read.val_main_v62, Cert.ReferenceIdeal.Read.val_main_v61, Cert.ReferenceIdeal.Read.val_main_v60, Cert.ReferenceIdeal.Read.val_main_v59, Cert.ReferenceIdeal.Read.val_main_cst_10, Cert.ReferenceIdeal.Read.val_main_cst_11]
  rfl

end Cert.KernelIdeal.KHost

end
-- ==== Proof.REdge.lean ====
import proofs.«177892_j11751030522785_1_alg».proof.Proof.Gen.ReferenceIdeal.Read
import proofs.«177892_j11751030522785_1_alg».proof.Proof.Layers
import Idealize.ShloMosaic.Lib.Pipeline.Value
import Idealize.ShloMosaic.Lib.ValueIdx
import Idealize.ShloMosaic.Lib.ValueLayout
import Idealize.ShloMosaic.PureOps.Ideal.Laws

/-!
# The reference's edge stages as row functions

At the exact extended-real reading, the reference's edge feature (its stage `%46`) is the edge feature of the two
gathered feature arrays and of the coordinate differences laid beside the edge attributes; its clipped
translation (stage `%55`) is the translation by the scale read off that feature.
-/

noncomputable section

namespace Cert.ReferenceIdeal.REdge

open Idealize.ShloMosaic Idealize.ShloMosaic.ValueIdx Cert.ReferenceIdeal Cert.ReferenceIdeal.Gen Cert.ReferenceIdeal.Read Cert.Layers

/-- The coordinate differences beside the edge attributes: the 5-column array the kernel's program builds on the host. -/
abbrev oth (hcat : Shape.Concatenates [S800000x3, S800000x2] ⟨2, ![800000, 5]⟩ 1)
    (x1 : (⟨S50000x3, .f32⟩ : BufTy).Contents (Elt Ideal)) (x2 : (⟨S2x800000, .i32⟩ : BufTy).Contents (Elt Ideal))
    (x3 : (⟨S800000x2, .f32⟩ : BufTy).Contents (Elt Ideal)) : Arr 800000 5 :=
  concatenate ⟨2, ![800000, 5]⟩ 1 [⟨S800000x3, val_main_v18 (F := Ideal) x1 x2⟩, ⟨S800000x2, x3⟩] hcat

/-! ## Small facts: indices, the activation, the bias row, the five-column array -/

/-- An index is the pair of its row and its column. -/
theorem ix2_row_col {n k : Nat} (i : (⟨2, ![n, k]⟩ : Shape).Idx) : ix2 (row i) (col i) = i :=
  funext fun a => Fin.ext (by match a with | ⟨0, _⟩ => rfl | ⟨1, _⟩ => rfl)

/-- The host's expansion of the activation, `x · (1 / (1 + exp (-x)))` with both ones the float word of `1.0`. -/
theorem silu_host (x : Ideal .f32) :
    FloatOps.mulf x (FloatOps.hostDivf (FloatOps.ofBits (F := Ideal) .f32 0x3F800000#32)
      (FloatOps.addf (FloatOps.ofBits (F := Ideal) .f32 0x3F800000#32) (FloatOps.hostUnary .exp (FloatOps.hostNegf x))))
      = silu x := by
  have h1 : FloatOps.ofBits (F := Ideal) .f32 0x3F800000#32 = 1 := IdealRules.sign_bit.ideal_onePat .f32
  rw [h1]
  rfl

/-- A 64-vector viewed as a one-row matrix, read in its row. -/
theorem bias_apply (hb : S64.ShapeCasts S1x64) (x : (⟨S64, .f32⟩ : BufTy).Contents (Elt Ideal)) (q : Fin 64) :
    shapeCast S1x64 x hb (ix2 0 q) = x (ix1 q) :=
  (shapeCast_addUnit_apply ![64] x hb (ix2 0 q)).trans (congrArg x (funext fun a => Fin.ext (by match a with | ⟨0, _⟩ => rfl)))

/-- Columns 0–2 of the five-column array are the coordinate differences. -/
theorem oth_left (hcat : Shape.Concatenates [S800000x3, S800000x2] ⟨2, ![800000, 5]⟩ 1) (x1 : (⟨S50000x3, .f32⟩ : BufTy).Contents (Elt Ideal)) (x2 : (⟨S2x800000, .i32⟩ : BufTy).Contents (Elt Ideal)) (x3 : (⟨S800000x2, .f32⟩ : BufTy).Contents (Elt Ideal)) (r : Fin 800000) (c : Fin 5) (hc : c.val < 3) :
    oth hcat x1 x2 x3 (ix2 r c) = val_main_v18 (F := Ideal) x1 x2 (ix2 r ⟨c.val, hc⟩) :=
  concatenate_pair_apply_left (t := ⟨2, ![800000, 5]⟩) 1 _ _ hcat (ix2 r c) rfl (ix2 r ⟨c.val, hc⟩)
    (fun b => by match b with | ⟨0, _⟩ => rfl | ⟨1, _⟩ => rfl)

/-- Columns 3–4 of the five-column array are the edge attributes. -/
theorem oth_right (hcat : Shape.Concatenates [S800000x3, S800000x2] ⟨2, ![800000, 5]⟩ 1) (x1 : (⟨S50000x3, .f32⟩ : BufTy).Contents (Elt Ideal)) (x2 : (⟨S2x800000, .i32⟩ : BufTy).Contents (Elt Ideal)) (x3 : (⟨S800000x2, .f32⟩ : BufTy).Contents (Elt Ideal)) (r : Fin 800000) (c : Fin 5) (hc : 3 ≤ c.val) :
    oth hcat x1 x2 x3 (ix2 r c) = x3 (ix2 r ⟨c.val - 3, by have := c.isLt; omega⟩) :=
  concatenate_pair_apply_right (t := ⟨2, ![800000, 5]⟩) 1 _ _ hcat (ix2 r c) rfl rfl (ix2 r ⟨c.val - 3, by have := c.isLt; omega⟩)
    (fun b hb => by match b, hb with | ⟨0, _⟩, _ => rfl | ⟨1, _⟩, hb => exact absurd (Fin.ext rfl) hb)
    (by show c.val - 3 + 3 = c.val; omega)

/-! ## The edge network's input row -/

/-- The reference's 131-column concatenation is the edge network's input row. -/
theorem v36_eq (hcat : Shape.Concatenates [S800000x3, S800000x2] ⟨2, ![800000, 5]⟩ 1) (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x3 : (⟨S800000x2, .f32⟩ : BufTy).Contents (Elt Ideal)) :
    val_main_v36 (F := Ideal) x0 x1 x2 x3
      = ein (val_main_v28 (F := Ideal) x0 x2) (val_main_v35 (F := Ideal) x0 x2) (oth hcat x1 x2 x3) := by
  funext j
  have hj := idx2_lt1 j
  unfold val_main_v36 ein
  by_cases h1 : (j 1).val < 64
  · rw [dif_pos h1]
    exact concatenate_apply_piece (t := S800000x131) 1 _ _ j 0 (by show 0 < 4; omega) S800000x64 _ rfl rfl 0 rfl
      (ix2 (row j) ⟨(j 1).val, h1⟩)
      (fun b hb => by match b, hb with | ⟨0, _⟩, _ => rfl | ⟨1, _⟩, hb => exact absurd (Fin.ext rfl) hb)
      (by show 0 + (j 1).val = (j 1).val; omega)
  · rw [dif_neg h1]
    by_cases h2 : (j 1).val < 128
    · rw [dif_pos h2]
      exact concatenate_apply_piece (t := S800000x131) 1 _ _ j 1 (by show 1 < 4; omega) S800000x64 _ rfl rfl 64 rfl
        (ix2 (row j) ⟨(j 1).val - 64, by omega⟩)
        (fun b hb => by match b, hb with | ⟨0, _⟩, _ => rfl | ⟨1, _⟩, hb => exact absurd (Fin.ext rfl) hb)
        (by show 64 + ((j 1).val - 64) = (j 1).val; omega)
    · rw [dif_neg h2]
      by_cases h3 : (j 1).val < 129
      · rw [if_pos h3]
        refine (concatenate_apply_piece (t := S800000x131) 1 _ _ j 2 (by show 2 < 4; omega) S800000x1 _ rfl rfl 128 rfl
          (ix2 (row j) 0)
          (fun b hb => by match b, hb with | ⟨0, _⟩, _ => rfl | ⟨1, _⟩, hb => exact absurd (Fin.ext rfl) hb)
          (by show 128 + 0 = (j 1).val; omega)).trans ?_
        rw [val_main_v21_apply, val_main_v20_apply, val_main_cst_apply, Ideal.ofBits_def, Ideal.ofBits_zero_f32, zero_add]
        refine Finset.sum_congr rfl fun d _ => ?_
        have e : idx_main_v20 (idx_main_v21 (ix2 (row j) (0 : Fin 1))) d = ix2 (row j) d :=
          funext fun a => Fin.ext (by match a with | ⟨0, _⟩ => rfl | ⟨1, _⟩ => rfl)
        rw [val_main_v19_apply, e, oth_left hcat x1 x2 x3 (row j) ⟨d.val, by omega⟩ d.isLt]
        rfl
      · rw [if_neg h3]
        refine (concatenate_apply_piece (t := S800000x131) 1 _ _ j 3 (by show 3 < 4; omega) S800000x2 _ rfl rfl 129 rfl
          (ix2 (row j) ⟨(j 1).val - 129, by omega⟩)
          (fun b hb => by match b, hb with | ⟨0, _⟩, _ => rfl | ⟨1, _⟩, hb => exact absurd (Fin.ext rfl) hb)
          (by show 129 + ((j 1).val - 129) = (j 1).val; omega)).trans ?_
        rw [oth_right hcat x1 x2 x3 (row j) ⟨(j 1).val - 126, by omega⟩ (by show 3 ≤ (j 1).val - 126; omega)]
        exact congrArg x3 (congrArg (ix2 (row j)) (Fin.ext (by show (j 1).val - 129 = (j 1).val - 126 - 3; omega)))

/-! ## The two dense layers of the edge network -/

/-- The first dense layer. -/
theorem v40_eq (hb : S64.ShapeCasts S1x64) (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x3 : (⟨S800000x2, .f32⟩ : BufTy).Contents (Elt Ideal)) (x4 : (⟨S131x64, .f32⟩ : BufTy).Contents (Elt Ideal)) (x5 : (⟨S64, .f32⟩ : BufTy).Contents (Elt Ideal)) :
    val_main_v40 (F := Ideal) x0 x1 x2 x3 x4 x5
      = lin (val_main_v36 (F := Ideal) x0 x1 x2 x3) x4 (shapeCast S1x64 x5 hb) := by
  funext i
  have el : ∀ k : Fin 131, lidx_main_v37 i k = ix2 (row i) k := fun k => funext fun a => Fin.ext (by match a with | ⟨0, _⟩ => rfl | ⟨1, _⟩ => rfl)
  have er : ∀ k : Fin 131, ridx_main_v37 i k = ix2 k (col i) := fun k => funext fun a => Fin.ext (by match a with | ⟨0, _⟩ => rfl | ⟨1, _⟩ => rfl)
  have eb : idx_main_v38 (idx_main_v39 i) = ix1 (col i) := funext fun a => Fin.ext (by match a with | ⟨0, _⟩ => rfl)
  rw [val_main_v40_apply, val_main_v37_apply, val_main_v39_apply, val_main_v38_apply, eb, ← bias_apply hb x5 (col i)]
  simp only [el, er]
  rfl

/-- The activation after the first dense layer. -/
theorem v41_eq (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x3 : (⟨S800000x2, .f32⟩ : BufTy).Contents (Elt Ideal)) (x4 : (⟨S131x64, .f32⟩ : BufTy).Contents (Elt Ideal)) (x5 : (⟨S64, .f32⟩ : BufTy).Contents (Elt Ideal)) :
    val_main_v41 (F := Ideal) x0 x1 x2 x3 x4 x5 = act (val_main_v40 (F := Ideal) x0 x1 x2 x3 x4 x5) := by
  funext i
  rw [val_main_v41_apply, val_main_call0_v5_apply, val_main_call0_v4_apply, val_main_call0_cst_0_apply,
    val_main_call0_v3_apply, val_main_call0_v2_apply, val_main_call0_cst_apply, val_main_call0_v1_apply, val_main_call0_v0_apply]
  exact silu_host _

/-- The second dense layer. -/
theorem v45_eq (hb : S64.ShapeCasts S1x64) (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x3 : (⟨S800000x2, .f32⟩ : BufTy).Contents (Elt Ideal)) (x4 : (⟨S131x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v45 (F := Ideal) x0 x1 x2 x3 x4 x5 x6 x7
      = lin (val_main_v41 (F := Ideal) x0 x1 x2 x3 x4 x5) x6 (shapeCast S1x64 x7 hb) := by
  funext i
  have el : ∀ k : Fin 64, lidx_main_v42 i k = ix2 (row i) k := fun k => funext fun a => Fin.ext (by match a with | ⟨0, _⟩ => rfl | ⟨1, _⟩ => rfl)
  have er : ∀ k : Fin 64, ridx_main_v42 i k = ix2 k (col i) := fun k => funext fun a => Fin.ext (by match a with | ⟨0, _⟩ => rfl | ⟨1, _⟩ => rfl)
  have eb : idx_main_v43 (idx_main_v44 i) = ix1 (col i) := funext fun a => Fin.ext (by match a with | ⟨0, _⟩ => rfl)
  rw [val_main_v45_apply, val_main_v42_apply, val_main_v44_apply, val_main_v43_apply, eb, ← bias_apply hb x7 (col i)]
  simp only [el, er]
  rfl

/-- The activation after the second dense layer. -/
theorem v46_eq (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x3 : (⟨S800000x2, .f32⟩ : BufTy).Contents (Elt Ideal)) (x4 : (⟨S131x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v46 (F := Ideal) x0 x1 x2 x3 x4 x5 x6 x7 = act (val_main_v45 (F := Ideal) x0 x1 x2 x3 x4 x5 x6 x7) := by
  funext i
  rw [val_main_v46_apply, val_main_call1_v5_apply, val_main_call1_v4_apply, val_main_call1_cst_0_apply,
    val_main_call1_v3_apply, val_main_call1_v2_apply, val_main_call1_cst_apply, val_main_call1_v1_apply, val_main_call1_v0_apply]
  exact silu_host _

/-! ## The coordinate scale -/

/-- The dense layer on the edge feature. -/
theorem v50_eq (hb : S64.ShapeCasts S1x64) (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x3 : (⟨S800000x2, .f32⟩ : BufTy).Contents (Elt Ideal)) (x4 : (⟨S131x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x12 : (⟨S64x64, .f32⟩ : BufTy).Contents (Elt Ideal)) (x13 : (⟨S64, .f32⟩ : BufTy).Contents (Elt Ideal)) :
    val_main_v50 (F := Ideal) x0 x1 x2 x3 x4 x5 x6 x7 x12 x13
      = lin (val_main_v46 (F := Ideal) x0 x1 x2 x3 x4 x5 x6 x7) x12 (shapeCast S1x64 x13 hb) := by
  funext i
  have el : ∀ k : Fin 64, lidx_main_v47 i k = ix2 (row i) k := fun k => funext fun a => Fin.ext (by match a with | ⟨0, _⟩ => rfl | ⟨1, _⟩ => rfl)
  have er : ∀ k : Fin 64, ridx_main_v47 i k = ix2 k (col i) := fun k => funext fun a => Fin.ext (by match a with | ⟨0, _⟩ => rfl | ⟨1, _⟩ => rfl)
  have eb : idx_main_v48 (idx_main_v49 i) = ix1 (col i) := funext fun a => Fin.ext (by match a with | ⟨0, _⟩ => rfl)
  rw [val_main_v50_apply, val_main_v47_apply, val_main_v49_apply, val_main_v48_apply, eb, ← bias_apply hb x13 (col i)]
  simp only [el, er]
  rfl

/-- Its activation. -/
theorem v51_eq (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x3 : (⟨S800000x2, .f32⟩ : BufTy).Contents (Elt Ideal)) (x4 : (⟨S131x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x12 : (⟨S64x64, .f32⟩ : BufTy).Contents (Elt Ideal)) (x13 : (⟨S64, .f32⟩ : BufTy).Contents (Elt Ideal)) :
    val_main_v51 (F := Ideal) x0 x1 x2 x3 x4 x5 x6 x7 x12 x13 = act (val_main_v50 (F := Ideal) x0 x1 x2 x3 x4 x5 x6 x7 x12 x13) := by
  funext i
  rw [val_main_v51_apply, val_main_call2_v5_apply, val_main_call2_v4_apply, val_main_call2_cst_0_apply,
    val_main_call2_v3_apply, val_main_call2_v2_apply, val_main_call2_cst_apply, val_main_call2_v1_apply, val_main_call2_v0_apply]
  exact silu_host _

/-- The product with the one-column matrix: the coordinate scale. -/
theorem v52_eq (hb : S64.ShapeCasts S1x64) (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x3 : (⟨S800000x2, .f32⟩ : BufTy).Contents (Elt Ideal)) (x4 : (⟨S131x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x1, .f32⟩ : BufTy).Contents (Elt Ideal)) :
    val_main_v52 (F := Ideal) x0 x1 x2 x3 x4 x5 x6 x7 x12 x13 x14
      = scaleCol (val_main_v46 (F := Ideal) x0 x1 x2 x3 x4 x5 x6 x7) x12 (shapeCast S1x64 x13 hb) x14 := by
  funext i
  have el : ∀ k : Fin 64, lidx_main_v52 i k = ix2 (row i) k := fun k => funext fun a => Fin.ext (by match a with | ⟨0, _⟩ => rfl | ⟨1, _⟩ => rfl)
  have er : ∀ k : Fin 64, ridx_main_v52 i k = ix2 k (col i) := fun k => funext fun a => Fin.ext (by match a with | ⟨0, _⟩ => rfl | ⟨1, _⟩ => rfl)
  rw [val_main_v52_apply, v51_eq, v50_eq hb]
  simp only [el, er]
  rfl

/-- The reference's edge feature. -/
theorem edgeFeat_eq (hcat : Shape.Concatenates [S800000x3, S800000x2] ⟨2, ![800000, 5]⟩ 1) (hb : S64.ShapeCasts S1x64)
    (x0 : (⟨S50000x64, .f32⟩ : BufTy).Contents (Elt Ideal)) (x1 : (⟨S50000x3, .f32⟩ : BufTy).Contents (Elt Ideal))
    (x2 : (⟨S2x800000, .i32⟩ : BufTy).Contents (Elt Ideal)) (x3 : (⟨S800000x2, .f32⟩ : BufTy).Contents (Elt Ideal))
    (x4 : (⟨S131x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) :
    val_main_v46 (F := Ideal) x0 x1 x2 x3 x4 x5 x6 x7
      = edgeFeat (val_main_v28 (F := Ideal) x0 x2) (val_main_v35 (F := Ideal) x0 x2) (oth hcat x1 x2 x3) x4
          (shapeCast S1x64 x5 hb) x6 (shapeCast S1x64 x7 hb) := by
  rw [v46_eq, v45_eq hb, v41_eq, v40_eq hb, v36_eq hcat]
  rfl

/-- The reference's clipped translation. -/
theorem trans_eq (hcat : Shape.Concatenates [S800000x3, S800000x2] ⟨2, ![800000, 5]⟩ 1) (hb : S64.ShapeCasts S1x64)
    (x0 : (⟨S50000x64, .f32⟩ : BufTy).Contents (Elt Ideal)) (x1 : (⟨S50000x3, .f32⟩ : BufTy).Contents (Elt Ideal))
    (x2 : (⟨S2x800000, .i32⟩ : BufTy).Contents (Elt Ideal)) (x3 : (⟨S800000x2, .f32⟩ : BufTy).Contents (Elt Ideal))
    (x4 : (⟨S131x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x12 : (⟨S64x64, .f32⟩ : BufTy).Contents (Elt Ideal)) (x13 : (⟨S64, .f32⟩ : BufTy).Contents (Elt Ideal))
    (x14 : (⟨S64x1, .f32⟩ : BufTy).Contents (Elt Ideal)) :
    val_main_v55 (F := Ideal) x0 x1 x2 x3 x4 x5 x6 x7 x12 x13 x14
      = trans (oth hcat x1 x2 x3)
          (scaleCol (val_main_v46 (F := Ideal) x0 x1 x2 x3 x4 x5 x6 x7) x12 (shapeCast S1x64 x13 hb) x14) := by
  funext i
  have hi := idx2_lt1 i
  have e53 : idx_main_v53 i = ix2 (row i) (0 : Fin 1) := funext fun a => Fin.ext (by match a with | ⟨0, _⟩ => rfl | ⟨1, _⟩ => rfl)
  have e18 : val_main_v18 (F := Ideal) x1 x2 i = oth hcat x1 x2 x3 (ix2 (row i) ⟨(i 1).val, by omega⟩) := by
    rw [oth_left hcat x1 x2 x3 (row i) ⟨(i 1).val, by omega⟩ hi]
    exact congrArg _ (ix2_row_col i).symm
  rw [val_main_v55_apply, val_main_call3_v4_apply, val_main_call3_v3_apply, val_main_cst_8_apply,
    val_main_call3_v2_apply, val_main_call3_v1_apply, val_main_call3_v0_apply, val_main_cst_7_apply,
    val_main_v54_apply, val_main_v53_apply, e53, v52_eq hb, e18]
  rfl

end Cert.ReferenceIdeal.REdge

end
-- ==== Proof.RNode.lean ====
import proofs.«177892_j11751030522785_1_alg».proof.Proof.Gen.ReferenceIdeal.Read
import proofs.«177892_j11751030522785_1_alg».proof.Proof.Layers
import Idealize.ShloMosaic.Lib.Pipeline.Value
import Idealize.ShloMosaic.Lib.ValueIdx
import Idealize.ShloMosaic.Lib.ValueLayout
import Idealize.ShloMosaic.PureOps.Ideal.Laws

/-!
# The reference's two results as row functions

At the exact extended-real reading, the reference's first result (stage `%81`) is the updated node feature of the
node features and the aggregated edge features (stage `%70`), and its second result (stage `%67`) is the updated
coordinate of the coordinates, the aggregated translations (stage `%58`) and the edge counts (stage `%62`) as a column.
-/

noncomputable section

namespace Cert.ReferenceIdeal.RNode

open Idealize.ShloMosaic Idealize.ShloMosaic.ValueIdx Cert.ReferenceIdeal Cert.ReferenceIdeal.Gen Cert.ReferenceIdeal.Read Cert.Layers

/-! ## Small facts -/

/-- The float word `0x3F800000` denotes `1`. -/
theorem one_word : Ideal.ofBits .f32 0x3F800000#32 = 1 := IdealRules.sign_bit.ideal_onePat .f32

/-- A 64-vector viewed as a one-row matrix: entry `(0, q)` is the vector's entry `q`. -/
theorem bias_row (x : (⟨S64, .f32⟩ : BufTy).Contents (Elt Ideal)) (hb : S64.ShapeCasts S1x64) (q : Fin 64) :
    shapeCast S1x64 x hb (ix2 0 q) = x (ix1 q) := by
  refine (shapeCast_addUnit_apply ![64] x hb (ix2 0 q)).trans ?_
  exact congrArg x (funext fun a => match a with | ⟨0, _⟩ => rfl)

/-- A 50000-vector viewed as a one-column matrix: entry `(r, 0)` is the vector's entry `r`. -/
theorem cnt_col (y : (⟨S50000, .f32⟩ : BufTy).Contents (Elt Ideal)) (hc : S50000.ShapeCasts S50000x1) (r : Fin 50000) :
    shapeCast S50000x1 y hc (ix2 r 0) = y (ix1 r) := by
  refine shapeCast_apply y hc (ix2 r 0) (ix1 r) ?_
  rw [Shape.rowMajor_val_one, Shape.rowMajor_val_two]
  show r.val = r.val * 1 + 0
  omega

/-- The first layer's bias, broadcast over the rows, is the one-row bias matrix read at the column. -/
theorem bias1 (hb : S64.ShapeCasts S1x64) (x9 : (⟨S64, .f32⟩ : BufTy).Contents (Elt Ideal)) (i : S50000x64.Idx) :
    val_main_v74 (F := Ideal) x9 i = shapeCast S1x64 x9 hb (ix2 0 (col i)) := by
  rw [val_main_v74_apply, val_main_v73_apply, bias_row]
  exact congrArg x9 (funext fun a => match a with | ⟨0, _⟩ => rfl)

/-- The second layer's bias, broadcast over the rows, is the one-row bias matrix read at the column. -/
theorem bias2 (hb : S64.ShapeCasts S1x64) (x11 : (⟨S64, .f32⟩ : BufTy).Contents (Elt Ideal)) (i : S50000x64.Idx) :
    val_main_v79 (F := Ideal) x11 i = shapeCast S1x64 x11 hb (ix2 0 (col i)) := by
  rw [val_main_v79_apply, val_main_v78_apply, bias_row]
  exact congrArg x11 (funext fun a => match a with | ⟨0, _⟩ => rfl)

/-! ## The node network, layer by layer -/

/-- The concatenation of the node features and the aggregated edge features (stage `%71`), read at row `i 0` and
    column `k`, is the two arrays side by side. -/
theorem v71_read (x0 : (⟨S50000x64, .f32⟩ : BufTy).Contents (Elt Ideal)) (x1 : (⟨S50000x3, .f32⟩ : BufTy).Contents (Elt Ideal))
    (x2 : (⟨S2x800000, .i32⟩ : BufTy).Contents (Elt Ideal)) (x3 : (⟨S800000x2, .f32⟩ : BufTy).Contents (Elt Ideal))
    (x4 : (⟨S131x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (i : S50000x64.Idx) (k : Fin 128) :
    val_main_v71 (F := Ideal) x0 x1 x2 x3 x4 x5 x6 x7 (lidx_main_v72 i k)
      = cat2 x0 (val_main_v70 (F := Ideal) x0 x1 x2 x3 x4 x5 x6 x7) (ix2 (row i) k) := by
  unfold val_main_v71
  generalize val_main_v70 (F := Ideal) x0 x1 x2 x3 x4 x5 x6 x7 = y
  by_cases hk : k.val < 64
  · refine (concatenate_pair_apply_left (1 : Fin S50000x128.rank) x0 y concatenates_S50000x64_S50000x64_S50000x128_d1
      (lidx_main_v72 i k) rfl (ix2 (row i) ⟨k.val, hk⟩) (fun b => match b with | ⟨0, _⟩ => rfl | ⟨1, _⟩ => rfl)).trans ?_
    unfold cat2
    show x0 _ = if h : k.val < 64 then x0 (ix2 (row i) ⟨k.val, h⟩) else y (ix2 (row i) ⟨k.val - 64, _⟩)
    rw [dif_pos hk]
  · refine (concatenate_pair_apply_right (1 : Fin S50000x128.rank) x0 y concatenates_S50000x64_S50000x64_S50000x128_d1
      (lidx_main_v72 i k) rfl rfl (ix2 (row i) ⟨k.val - 64, by have := k.isLt; omega⟩)
      (fun b hne => match b, hne with | ⟨0, _⟩, _ => rfl | ⟨1, _⟩, hne => absurd rfl hne)
      (by show k.val - 64 + 64 = k.val; omega)).trans ?_
    unfold cat2
    show y _ = if h : k.val < 64 then x0 (ix2 (row i) ⟨k.val, h⟩) else y (ix2 (row i) ⟨k.val - 64, _⟩)
    rw [dif_neg hk]

/-- Stage `%75`: the first dense layer of the concatenated row. -/
theorem v75_eq (hb : S64.ShapeCasts S1x64) (x0 : (⟨S50000x64, .f32⟩ : BufTy).Contents (Elt Ideal)) (x1 : (⟨S50000x3, .f32⟩ : BufTy).Contents (Elt Ideal))
    (x2 : (⟨S2x800000, .i32⟩ : BufTy).Contents (Elt Ideal)) (x3 : (⟨S800000x2, .f32⟩ : BufTy).Contents (Elt Ideal))
    (x4 : (⟨S131x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S128x64, .f32⟩ : BufTy).Contents (Elt Ideal)) (x9 : (⟨S64, .f32⟩ : BufTy).Contents (Elt Ideal)) :
    val_main_v75 (F := Ideal) x0 x1 x2 x3 x4 x5 x6 x7 x8 x9
      = lin (cat2 x0 (val_main_v70 (F := Ideal) x0 x1 x2 x3 x4 x5 x6 x7)) x8 (shapeCast S1x64 x9 hb) := by
  funext i
  have hsum : val_main_v72 (F := Ideal) x0 x1 x2 x3 x4 x5 x6 x7 x8 i
      = ∑ k : Fin 128, cat2 x0 (val_main_v70 (F := Ideal) x0 x1 x2 x3 x4 x5 x6 x7) (ix2 (row i) k) * x8 (ix2 k (col i)) := by
    rw [val_main_v72_apply]
    refine Finset.sum_congr rfl fun k _ => ?_
    have er : ridx_main_v72 i k = ix2 k (col i) := funext fun a => match a with | ⟨0, _⟩ => rfl | ⟨1, _⟩ => rfl
    rw [v71_read, er]
  rw [val_main_v75_apply, hsum, bias1 hb]
  rfl

/-- Stage `%76`: the activation of stage `%75`, the reference spelling the logistic function as `1 / (1 + e⁻ˣ)`. -/
theorem v76_eq (x0 : (⟨S50000x64, .f32⟩ : BufTy).Contents (Elt Ideal)) (x1 : (⟨S50000x3, .f32⟩ : BufTy).Contents (Elt Ideal))
    (x2 : (⟨S2x800000, .i32⟩ : BufTy).Contents (Elt Ideal)) (x3 : (⟨S800000x2, .f32⟩ : BufTy).Contents (Elt Ideal))
    (x4 : (⟨S131x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S128x64, .f32⟩ : BufTy).Contents (Elt Ideal)) (x9 : (⟨S64, .f32⟩ : BufTy).Contents (Elt Ideal)) :
    val_main_v76 (F := Ideal) x0 x1 x2 x3 x4 x5 x6 x7 x8 x9 = act (val_main_v75 (F := Ideal) x0 x1 x2 x3 x4 x5 x6 x7 x8 x9) := by
  funext i
  rw [val_main_v76_apply, val_main_call5_v5_apply, val_main_call5_v4_apply, val_main_call5_cst_0_apply,
    val_main_call5_v3_apply, val_main_call5_v2_apply, val_main_call5_cst_apply, val_main_call5_v1_apply,
    val_main_call5_v0_apply]
  show _ = silu (val_main_v75 (F := Ideal) x0 x1 x2 x3 x4 x5 x6 x7 x8 x9 i)
  generalize val_main_v75 (F := Ideal) x0 x1 x2 x3 x4 x5 x6 x7 x8 x9 i = t
  show t * Ideal.div (Ideal.ofBits .f32 0x3F800000#32) (Ideal.ofBits .f32 0x3F800000#32 + Ideal.exp (-t))
    = t * Ideal.div 1 (1 + Ideal.exp (-t))
  rw [one_word]

/-- Stage `%80`: the second dense layer. -/
theorem v80_eq (hb : S64.ShapeCasts S1x64) (x0 : (⟨S50000x64, .f32⟩ : BufTy).Contents (Elt Ideal)) (x1 : (⟨S50000x3, .f32⟩ : BufTy).Contents (Elt Ideal))
    (x2 : (⟨S2x800000, .i32⟩ : BufTy).Contents (Elt Ideal)) (x3 : (⟨S800000x2, .f32⟩ : BufTy).Contents (Elt Ideal))
    (x4 : (⟨S131x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S128x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal)) :
    val_main_v80 (F := Ideal) x0 x1 x2 x3 x4 x5 x6 x7 x8 x9 x10 x11
      = lin (val_main_v76 (F := Ideal) x0 x1 x2 x3 x4 x5 x6 x7 x8 x9) x10 (shapeCast S1x64 x11 hb) := by
  funext i
  have hsum : val_main_v77 (F := Ideal) x0 x1 x2 x3 x4 x5 x6 x7 x8 x9 x10 i
      = ∑ k : Fin 64, val_main_v76 (F := Ideal) x0 x1 x2 x3 x4 x5 x6 x7 x8 x9 (ix2 (row i) k) * x10 (ix2 k (col i)) := by
    rw [val_main_v77_apply]
    refine Finset.sum_congr rfl fun k _ => ?_
    have el : lidx_main_v77 i k = ix2 (row i) k := funext fun a => match a with | ⟨0, _⟩ => rfl | ⟨1, _⟩ => rfl
    have er : ridx_main_v77 i k = ix2 k (col i) := funext fun a => match a with | ⟨0, _⟩ => rfl | ⟨1, _⟩ => rfl
    rw [el, er]
  rw [val_main_v80_apply, hsum, bias2 hb]
  rfl

/-- The reference's updated node feature. -/
theorem nodeH_eq (hb : S64.ShapeCasts S1x64)
    (x0 : (⟨S50000x64, .f32⟩ : BufTy).Contents (Elt Ideal)) (x1 : (⟨S50000x3, .f32⟩ : BufTy).Contents (Elt Ideal))
    (x2 : (⟨S2x800000, .i32⟩ : BufTy).Contents (Elt Ideal)) (x3 : (⟨S800000x2, .f32⟩ : BufTy).Contents (Elt Ideal))
    (x4 : (⟨S131x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S128x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal)) :
    val_main_v81 (F := Ideal) x0 x1 x2 x3 x4 x5 x6 x7 x8 x9 x10 x11
      = nodeH x0 (val_main_v70 (F := Ideal) x0 x1 x2 x3 x4 x5 x6 x7) x8 (shapeCast S1x64 x9 hb) x10
          (shapeCast S1x64 x11 hb) := by
  funext i
  rw [val_main_v81_apply, v80_eq hb, v76_eq, v75_eq hb]
  rfl

/-- The reference's updated coordinate. -/
theorem nodeC_eq (hc : S50000.ShapeCasts S50000x1)
    (x0 : (⟨S50000x64, .f32⟩ : BufTy).Contents (Elt Ideal)) (x1 : (⟨S50000x3, .f32⟩ : BufTy).Contents (Elt Ideal))
    (x2 : (⟨S2x800000, .i32⟩ : BufTy).Contents (Elt Ideal)) (x3 : (⟨S800000x2, .f32⟩ : BufTy).Contents (Elt Ideal))
    (x4 : (⟨S131x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x12 : (⟨S64x64, .f32⟩ : BufTy).Contents (Elt Ideal)) (x13 : (⟨S64, .f32⟩ : BufTy).Contents (Elt Ideal))
    (x14 : (⟨S64x1, .f32⟩ : BufTy).Contents (Elt Ideal)) :
    val_main_v67 (F := Ideal) x0 x1 x2 x3 x4 x5 x6 x7 x12 x13 x14
      = nodeC x1 (val_main_v58 (F := Ideal) x0 x1 x2 x3 x4 x5 x6 x7 x12 x13 x14)
          (shapeCast S50000x1 (val_main_v62 (F := Ideal) x2) hc) := by
  funext i
  have hden : val_main_v65 (F := Ideal) x2 i
      = max (Ideal.ofBits .f32 0x3F800000#32) (shapeCast S50000x1 (val_main_v62 (F := Ideal) x2) hc (ix2 (row i) 0)) := by
    have e : idx_main_v64 (idx_main_v65 i) = ix1 (row i) := funext fun a => match a with | ⟨0, _⟩ => rfl
    rw [val_main_v65_apply, val_main_v64_apply, val_main_v63_apply, val_main_call4_v1_apply, val_main_call4_v0_apply,
      val_main_cst_12_apply, cnt_col, e]
    rfl
  rw [val_main_v67_apply, val_main_v66_apply, hden]
  rfl

end Cert.ReferenceIdeal.RNode

end
-- ==== Proof.Bridge.lean ====
import proofs.«177892_j11751030522785_1_alg».proof.Proof.KArrays
import proofs.«177892_j11751030522785_1_alg».proof.Proof.KHost
import proofs.«177892_j11751030522785_1_alg».proof.Proof.REdge
import proofs.«177892_j11751030522785_1_alg».proof.Proof.RNode

/-!
# The kernel's two results are the reference's two result stages

Region by region: the edge region leaves the reference's edge-feature and translation stages of the launch
arguments; the host scatter-adds between the regions are the reference's own; the node region then leaves the
reference's two result stages.
-/

set_option maxRecDepth 16384

noncomputable section

namespace Cert.KernelIdeal.Bridge

open Idealize.ShloMosaic Idealize.ShloMosaic.TcCoe Idealize.SL.Sem
open Cert.KernelIdeal Cert.KernelIdeal.Gen Cert.KernelIdeal.GenP Cert.Layers

variable (m : (ℓ : Loc nD τ sig) → Buf (Elt Ideal) ℓ) (ρ : Dev nD → PrngReg)

/-- After the edge region its feature array is the reference's edge-feature stage of the arguments. -/
theorem edge_feat (c : Dev nD) :
    (dat0 (V1 m ρ) c).arrAt 10 cfg0.N = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [KVal.final0_10 (V1 m ρ) c, KHost.V1_v10 m ρ c, KHost.V1_v17 m ρ c, KHost.V1_v33 m ρ c, KHost.V1_a4 m ρ c,
    KHost.V1_v34 m ρ c, KHost.V1_a6 m ρ c, KHost.V1_v35 m ρ c]
  exact (Cert.ReferenceIdeal.REdge.edgeFeat_eq concatenates_S800000x3_S800000x2_S800000x5_d1 shapeCasts_S64_S1x64 _ _ _ _ _ _ _ _).symm

/-- After the edge region its translation array is the reference's clipped-translation stage of the arguments. -/
theorem trans_arr (c : Dev nD) :
    (dat0 (V1 m ρ) c).arrAt 11 cfg0.N = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) := by
  rw [KVal.final0_11 (V1 m ρ) c, KHost.V1_v10 m ρ c, KHost.V1_v17 m ρ c, KHost.V1_v33 m ρ c, KHost.V1_a4 m ρ c,
    KHost.V1_v34 m ρ c, KHost.V1_a6 m ρ c, KHost.V1_v35 m ρ c, KHost.V1_a12 m ρ c, KHost.V1_v36 m ρ c, KHost.V1_a14 m ρ c]
  refine ((Cert.ReferenceIdeal.REdge.trans_eq concatenates_S800000x3_S800000x2_S800000x5_d1 shapeCasts_S64_S1x64 _ _ _ _ _ _ _ _ _ _ _).trans ?_).symm
  rw [Cert.ReferenceIdeal.REdge.edgeFeat_eq concatenates_S800000x3_S800000x2_S800000x5_d1 shapeCasts_S64_S1x64]

/-- The aggregated edge features the node region enters with are the reference's. -/
theorem agg_h (c : Dev nD) :
    V3 m ρ c main_v47 = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [KHost.V3_v47 m ρ c, edge_feat m ρ c]
  unfold Cert.ReferenceIdeal.Read.val_main_v70
  rfl

/-- The aggregated translations the node region enters with are the reference's. -/
theorem agg_c (c : Dev nD) :
    V3 m ρ c main_v40 = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) := by
  rw [KHost.V3_v40 m ρ c, trans_arr m ρ c]
  unfold Cert.ReferenceIdeal.Read.val_main_v58
  rfl

/-- The kernel's first result is the reference's first result stage. -/
theorem hout (c : Dev nD) :
    W4 m ρ c (Proc.devRef .tc main_v51_0) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [(W4_arr m ρ c 9 : W4 m ρ c (Proc.devRef .tc main_v51_0) = _), KVal.final1_9 (V3 m ρ) c, KHost.V3_a0 m ρ c, agg_h m ρ c,
    KHost.V3_a8 m ρ c, KHost.V3_v48 m ρ c, KHost.V3_a10 m ρ c, KHost.V3_v49 m ρ c]
  exact (Cert.ReferenceIdeal.RNode.nodeH_eq shapeCasts_S64_S1x64 _ _ _ _ _ _ _ _ _ _ _ _).symm

/-- The kernel's second result is the reference's second result stage. -/
theorem cout (c : Dev nD) :
    W4 m ρ c (Proc.devRef .tc main_v51_1) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) := by
  rw [(W4_arr m ρ c 10 : W4 m ρ c (Proc.devRef .tc main_v51_1) = _), KVal.final1_10 (V3 m ρ) c, KHost.V3_a1 m ρ c, agg_c m ρ c,
    KHost.V3_v50 m ρ c]
  exact (Cert.ReferenceIdeal.RNode.nodeC_eq shapeCasts_S50000_S50000x1 _ _ _ _ _ _ _ _ _ _ _).symm

end Cert.KernelIdeal.Bridge

end
-- ==== Proof.lean ====
/-
  The message-passing layer of an equivariant graph network: the Pallas program against its jnp reference.

  Both programs gather node features and coordinates by the edge list on the host, run an edge network on every edge
  (two dense layers with the activation `x · logistic x` on the 131-wide row of source features, target features,
  squared distance and edge attributes, giving the edge feature; a third dense layer, the activation and a product with a
  one-column matrix giving a scale; the coordinate difference times the scale, clipped to [-100, 100]), scatter-add the
  edge features, the translations and a count of ones by the source node on the host, and run a node network (two dense
  layers on the node feature beside its aggregated edge features, added to the feature; the coordinate plus the
  aggregated translation over the count raised to at least one).

  The Pallas program runs the two networks as two kernels over blocks of 4000 edges and of 2000 nodes, its matrix
  products `tpu.matmul`s of operands rounded to bf16 into zero accumulators, its logistic `tpu.logistic`; the reference
  runs them on whole arrays with `dot_general` and jax's expansion of the logistic. At the exact extended-real reading a
  change of float format is the identity, both matrix products are the plain sum over the contraction index and both
  logistics are `1 / (1 + e^(-x))`, and every output row of either network depends on one row of each row-indexed input:
  so each block the kernel writes back is the same rows of the reference's stage, the blocks tile the arrays, and the
  host gathers and scatter-adds on either side are the same operations on the same arrays. No law of the extended reals
  beyond reading each operation at an index is used, and the finiteness precondition is not needed.
-/
import proofs.«177892_j11751030522785_1_alg».proof.Defs
import proofs.«177892_j11751030522785_1_alg».proof.Proof.Gen.Kernel
import proofs.«177892_j11751030522785_1_alg».proof.Proof.Gen.KernelIdeal
import proofs.«177892_j11751030522785_1_alg».proof.Proof.Gen.ReferenceIdeal
import proofs.«177892_j11751030522785_1_alg».proof.Proof.Gen.Pre_finite_inputs
import proofs.«177892_j11751030522785_1_alg».proof.Proof.KernelFrameP
import proofs.«177892_j11751030522785_1_alg».proof.Proof.KernelIdealFrameP
import proofs.«177892_j11751030522785_1_alg».proof.Proof.KernelIdealRun
import proofs.«177892_j11751030522785_1_alg».proof.Proof.Gen.ReferenceIdeal.Run
import proofs.«177892_j11751030522785_1_alg».proof.Proof.Gen.ReferenceIdeal.Read
import proofs.«177892_j11751030522785_1_alg».proof.Proof.Bridge
import Idealize.ShloMosaic.Adequacy
import Idealize.ShloMosaic.Init

set_option maxRecDepth 16384

noncomputable section

namespace Cert.Proof

open Idealize.ShloMosaic Idealize.SL.Sem

/-- The word-level program runs and keeps its arguments. -/
theorem frame_k : Cert.frame_Kernel := fun m ρ _ => Cert.Kernel.GenP.frame m ρ

/-- The idealized program runs and keeps its arguments. -/
theorem frame_ki : Cert.frame_KernelIdeal := fun m ρ _ => Cert.KernelIdeal.GenP.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the same two results: the kernel's result buffers
    hold the reference's result stages of the arguments. -/
theorem algebraic : Cert.algebraic_KernelIdeal_ReferenceIdeal := by
  intro m ρ m' ρ' _ hagree
  refine ⟨fun c => Cert.KernelIdeal.GenP.W4 m ρ c (Proc.devRef .tc Cert.KernelIdeal.main_v51_0),
    fun c => Cert.KernelIdeal.GenP.W4 m ρ c (Proc.devRef .tc Cert.KernelIdeal.main_v51_1),
    Cert.KernelIdeal.GenP.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, -⟩ := hagree c
    rw [Cert.ReferenceIdeal.Read.val_main_v81_eq m' c, h0, h1, h2, h3, h4, h5, h6, h7, h8, h9, h10, h11]
    exact (Cert.KernelIdeal.Bridge.hout m ρ c).symm
  · obtain ⟨h0, h1, h2, h3, h4, h5, h6, h7, -, -, -, -, h12, h13, h14⟩ := hagree c
    rw [Cert.ReferenceIdeal.Read.val_main_v67_eq m' c, h0, h1, h2, h3, h4, h5, h6, h7, h12, h13, h14]
    exact (Cert.KernelIdeal.Bridge.cout m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
